-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S1x8192 : Shape := ⟨2, ![1, 8192]⟩
abbrev S1x256 : Shape := ⟨2, ![1, 256]⟩
abbrev S256 : Shape := ⟨1, ![256]⟩
abbrev S256x1 : Shape := ⟨2, ![256, 1]⟩
abbrev S256x8192 : Shape := ⟨2, ![256, 8192]⟩
abbrev S_ : Shape := ⟨0, ![]⟩

abbrev nBuf : Space → Nat
  | .hbm => 35
  | .vmem => 10
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S1x8192, .f32⟩
  | .hbm, ⟨3, _⟩ => ⟨S1x8192, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x256, .f32⟩
  | .local _ .vmem, ⟨1, _⟩ => ⟨S1x256, .f32⟩
  | .local _ .vmem, ⟨2, _⟩ => ⟨S1x8192, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x8192, .f32⟩
  | .local _ .vmem, ⟨8, _⟩ => ⟨S1x256, .f32⟩
  | .local _ .vmem, ⟨9, _⟩ => ⟨S1x256, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8192_S1x8192 : S8192.ShapeCasts S1x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  shapeCasts_S1x8192_S8192 : S1x8192.ShapeCasts S8192
  shapeCasts_S256_S256x1 : S256.ShapeCasts S256x1
  broadcasts_S256x1_S256x8192 : S256x1.Broadcasts S256x8192
  broadcasts_S1x8192_S256x8192 : S1x8192.Broadcasts S256x8192
  reduces_S256x8192_S256 : S256x8192.Reduces [1] S256
  shapeCasts_S256_S1x256 : S256.ShapeCasts S1x256
  reducesTo_S8192_S_d0 : S8192.ReducesTo [0] S_
  h_S_ : 0 < S_.numel
  bcast_S_S8192 : S_.BroadcastsInDim S8192 (![] : Fin 0 → Fin S8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256.size a ≤ S1x8192.size a
  hwx0_0 : ∀ i : grid0.Coords, EltTy.bits .f32 = 32 ∨ (Rect.block (s := S1x8192) S1x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x8192.size a
  hwx1_0 : ∀ i : grid1.Coords, EltTy.bits .f32 = 32 ∨ (Rect.block (s := S1x8192) S1x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x8192.size a
  hwx1_2 : ∀ i : grid1.Coords, EltTy.bits .f32 = 32 ∨ (Rect.block (s := S1x8192) S1x256.size (cc1_transform_2 i) (hinb1_2 i)).WholeWords (EltTy.packing .f32)

variable [Facts₀]

abbrev win0_0 : Pipeline.Window sig grid0 :=
  Pipeline.Window.ofSpec (Memref.whole main_v0) S1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S1x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_11 : Ref sig .tc := ⟨.hbm, 50, rfl⟩
abbrev main_v36 : Ref sig .tc := ⟨.hbm, 51, rfl⟩
abbrev main_cst_12 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_cst_14 : Ref sig .tc := ⟨.hbm, 60, rfl⟩
abbrev main_v43 : Ref sig .tc := ⟨.hbm, 61, rfl⟩
abbrev main_v44 : Ref sig .tc := ⟨.hbm, 62, rfl⟩
abbrev main_cst_15 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_16 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.K.Body0.lean ====
/-
  The first soft-rank call's body, as a triple in the program logic.

  At a grid point the body is handed three whole staging buffers: a row block of 256 entries of the vector, the
  whole vector as one row of 8192, and the output block of 256. It loads the first two whole, loads the third (and
  does not use what it read), and stores over the whole third the payload: for each of the 256 entries, the sum over
  the 8192 columns of the logistic of the difference, plus one. So after the body the two inputs hold what they
  held and the output holds that payload of the two inputs, whatever it held before.
-/
import proofs.«165866_j79809082295156_1_alg».proof.Proof.Gen.Kernel.Launch
import proofs.«165866_j79809082295156_1_alg».proof.Proof.Gen.Kernel.Skeleton
import proofs.«165866_j79809082295156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole row block of 256, as the rectangle the body loads and stores. -/
abbrev rRow : Rect S1x256 := Rect.unit (s := S1x256) ![0, 0] S1x256.size inb_S1x256_S1x256_0_0
/-- The whole row of 8192, as the rectangle the body loads. -/
abbrev rCol : Rect S1x8192 := Rect.unit (s := S1x8192) ![0, 0] S1x8192.size inb_S1x8192_S1x8192_0_0

/-- What the body leaves in the output buffer, from the two input buffers' contents: its one store, over the whole
    buffer, of the payload of the two loads. -/
def out0 (x0 : Vec F S1x256 .f32) (x1 : Vec F S1x8192 .f32) : Vec F S1x256 .f32 :=
  View.canon [⟨rRow, k0_pay1 (View.ld x0 rRow) (View.ld x1 rCol)⟩]

/-- The one store covers the output buffer. -/
theorem cover0 (p0 : Vec F S1x256 .f32) (y : S1x256.Idx) :
    ∃ pc ∈ ([⟨rRow, p0⟩] : List (View.Piece (Elt F) S1x256 .f32)), y ∈ pc.1.set :=
  View.cover_of_tiled [⟨rRow, p0⟩] S1x256.size (by rfl) y

set_option maxHeartbeats 1000000 in
/-- The body on whole staging buffers, the inputs at contents `x0`, `x1` and the output at anything, runs to the
    continuation holding the inputs as they were and the output at `out0 x0 x1`. -/
theorem sound_kernel0 (c : Dev nD) (E : Set ℕ) (i : grid0.Coords)
    (arg1 : Memref sig .tc .vmem S1x256 .f32) (harg1 : arg1.IsWhole)
    (arg2 : Memref sig .tc .vmem S1x8192 .f32) (harg2 : arg2.IsWhole)
    (arg3 : Memref sig .tc .vmem S1x256 .f32) (harg3 : arg3.IsWhole)
    (x0 : Vec F S1x256 .f32) (x1 : Vec F S1x8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) Variants.none c none) E (cc0__soft_rank_kernel i arg1 harg1 arg2 harg2 arg3 harg3) K := by
  simp only [cc0__soft_rank_kernel_eq_skeleton]; unfold cc0__soft_rank_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

end Cert.Kernel.Hand

end
-- ==== Proof.K.Dat0.lean ====
/-
  The first soft-rank call's proof data, and its body obligation at every grid point.

  The call has three windows. Window 0 is a row block of 256 entries of the vector, a new block at each of the 32
  grid points; window 1 is the whole vector as one row of 8192, the same block at every point (it is brought in once);
  window 2 is the output's row block of 256, written back at every point. Windows 0 and 1 are two readings of ONE
  array, so each holds it at half the share; the output's array is held whole. After the body at a point the two
  input buffers hold their blocks as found and the output buffer holds the body's payload of those two blocks.
-/
import proofs.«165866_j79809082295156_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole vector's staging buffer holds the vector at every point, brought in at the first point and not
    moved since: its block index is the same at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first call on core `c`: the arrays as the call finds them; after the body at point `t`
    each input buffer at its block and the output buffer at the payload of the two blocks; the invariant the
    untouched scoped rest and generator register; nothing owed; the two readings of the shared array at half the
    share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Entry0.lean ====
/-
  The first soft-rank call's arrays, taken out of the core's unscoped buffers and put back.

  The call reads ONE array through two windows (a row block of it and the whole of it) and writes another through the
  third. So behind its three windows there are two buffers. Held whole, the read buffer is the same as its two halves
  held side by side, one for each reading window, and the written buffer is held whole by the output window: that is
  the passage, in both directions, between "the two buffers behind the call's arrays, whole" and "the call's three
  arrays at their shares". At the call's entry it is used one way, at its exit the other.
-/
import proofs.«165866_j79809082295156_1_alg».proof.Proof.K.Dat0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the call's three arrays are two: the one it reads twice and the one it writes. -/
theorem arrImage0 : Finset.univ.image (Pipeline.arrRef spec0) = ({main_v0, main_v1} : Finset (Ref sig .tc)) := by decide

variable {c : Dev nD} (dat : Dat τ (Elt F) Unit ℕ (UR sig nD τ) ℕ cfg0 c)

/-- The shares the three windows hold their arrays at: the two readings half each, the output whole. -/
theorem share0_0 (h : dat.q 0 = fullShare.left) : dat.share 0 = fullShare.left := by
  unfold Dat.share; rw [if_neg (by decide)]; exact h
theorem share0_1 (h : dat.q 1 = fullShare.right) : dat.share 1 = fullShare.right := by
  unfold Dat.share; rw [if_neg (by decide)]; exact h
theorem share0_2 : dat.share 2 = fullShare := by
  unfold Dat.share; rw [if_pos (by decide)]

/-- From the two buffers whole to the three arrays at their shares: the read buffer is split in two. -/
theorem arrays_of_arrBufs0 (hq0 : dat.q 0 = fullShare.left) (hq1 : dat.q 1 = fullShare.right)
    (Vc : (b : Ref sig .tc) → Buf (Elt F) ((c : Thread nD τ).loc b))
    (A : (w : Fin cfg0.W) → Buf (Elt F) ((cfg0.win w).arr.view.loc (c : Thread nD τ)))
    (hA : ∀ w, A w = Vc (Pipeline.arrRef spec0 w)) :
    (Pipeline.arrBufs (Ix := Unit) (Name := ℕ) (U := UR sig nD τ) (Lvl := ℕ) spec0 c Vc : sProp 𝕄) ⊢ dat.arrays A := by
  unfold Pipeline.arrBufs Dat.arrays
  rw [arrImage0, bigSep_insert (by decide), bigSep_singleton, bigSep_W0]
  rw [(arr_whole0 0).set_eq_univ, (arr_whole0 2).set_eq_univ,
    share0_0 dat hq0, share0_1 dat hq1, share0_2 dat, hA 0, hA 1, hA 2]
  show (iprop((((c : Thread nD τ).loc main_v0) ↦{fullShare} Vc main_v0) ∗ (((c : Thread nD τ).loc main_v1) ↦{fullShare} Vc main_v1)) : sProp 𝕄) ⊢ _
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- From the three arrays at their shares back to the two buffers whole: the two halves of the read buffer are
    joined. Both readings hold the same contents, so the joined buffer holds them. -/
theorem arrBufs_of_arrays0 (hq0 : dat.q 0 = fullShare.left) (hq1 : dat.q 1 = fullShare.right)
    (Vc : (b : Ref sig .tc) → Buf (Elt F) ((c : Thread nD τ).loc b))
    (A : (w : Fin cfg0.W) → Buf (Elt F) ((cfg0.win w).arr.view.loc (c : Thread nD τ)))
    (hA : ∀ w, A w = Vc (Pipeline.arrRef spec0 w)) :
    dat.arrays A ⊢ (Pipeline.arrBufs (Ix := Unit) (Name := ℕ) (U := UR sig nD τ) (Lvl := ℕ) spec0 c Vc : sProp 𝕄) := by
  unfold Pipeline.arrBufs Dat.arrays
  rw [arrImage0, bigSep_insert (by decide), bigSep_singleton, bigSep_W0]
  rw [(arr_whole0 0).set_eq_univ, (arr_whole0 2).set_eq_univ,
    share0_0 dat hq0, share0_1 dat hq1, share0_2 dat, hA 0, hA 1, hA 2]
  show _ ⊢ (iprop((((c : Thread nD τ).loc main_v0) ↦{fullShare} Vc main_v0) ∗ (((c : Thread nD τ).loc main_v1) ↦{fullShare} Vc main_v1)) : sProp 𝕄)
  iintro ⟨Ha, Hb, H1⟩
  isplitl [Ha Hb]
  · iapply (pointsTo_share (PosShare.mem_left_op_right fullShare)).2
    isplitl [Ha]; · iexact Ha
    iexact Hb
  iexact H1

end Cert.Kernel.Hand

end
-- ==== Proof.K.Body1.lean ====
/-
  The second soft-rank call's body, as a triple in the program logic.

  At a grid point the body is handed three whole staging buffers: a row block of 256 entries of the vector, the
  whole vector as one row of 8192, and the output block of 256. It loads the first two whole, loads the third (and
  does not use what it read), and stores over the whole third the payload: for each of the 256 entries, the sum over
  the 8192 columns of the logistic of the difference, plus one. So after the body the two inputs hold what they
  held and the output holds that payload of the two inputs, whatever it held before.
-/
import proofs.«165866_j79809082295156_1_alg».proof.Proof.Gen.Kernel.Launch
import proofs.«165866_j79809082295156_1_alg».proof.Proof.Gen.Kernel.Skeleton
import proofs.«165866_j79809082295156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole row block of 256, as the rectangle the body loads and stores. -/
abbrev rRow1 : Rect S1x256 := Rect.unit (s := S1x256) ![0, 0] S1x256.size inb_S1x256_S1x256_0_0
/-- The whole row of 8192, as the rectangle the body loads. -/
abbrev rCol1 : Rect S1x8192 := Rect.unit (s := S1x8192) ![0, 0] S1x8192.size inb_S1x8192_S1x8192_0_0

/-- What the body leaves in the output buffer, from the two input buffers' contents: its one store, over the whole
    buffer, of the payload of the two loads. -/
def out1 (x0 : Vec F S1x256 .f32) (x1 : Vec F S1x8192 .f32) : Vec F S1x256 .f32 :=
  View.canon [⟨rRow1, k1_pay1 (View.ld x0 rRow1) (View.ld x1 rCol1)⟩]

/-- The one store covers the output buffer. -/
theorem cover1 (p0 : Vec F S1x256 .f32) (y : S1x256.Idx) :
    ∃ pc ∈ ([⟨rRow1, p0⟩] : List (View.Piece (Elt F) S1x256 .f32)), y ∈ pc.1.set :=
  View.cover_of_tiled [⟨rRow1, p0⟩] S1x256.size (by rfl) y

set_option maxHeartbeats 1000000 in
/-- The body on whole staging buffers, the inputs at contents `x0`, `x1` and the output at anything, runs to the
    continuation holding the inputs as they were and the output at `out1 x0 x1`. -/
theorem sound_kernel1 (c : Dev nD) (E : Set ℕ) (i : grid1.Coords)
    (arg1 : Memref sig .tc .vmem S1x256 .f32) (harg1 : arg1.IsWhole)
    (arg2 : Memref sig .tc .vmem S1x8192 .f32) (harg2 : arg2.IsWhole)
    (arg3 : Memref sig .tc .vmem S1x256 .f32) (harg3 : arg3.IsWhole)
    (x0 : Vec F S1x256 .f32) (x1 : Vec F S1x8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1__soft_rank_kernel i arg1 harg1 arg2 harg2 arg3 harg3) K := by
  simp only [cc1__soft_rank_kernel_eq_skeleton]; unfold cc1__soft_rank_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

end Cert.Kernel.Hand

end
-- ==== Proof.K.Dat1.lean ====
/-
  The second soft-rank call's proof data, and its body obligation at every grid point.

  The call has three windows. Window 0 is a row block of 256 entries of the vector, a new block at each of the 32
  grid points; window 1 is the whole vector as one row of 8192, the same block at every point (it is brought in once);
  window 2 is the output's row block of 256, written back at every point. Windows 0 and 1 are two readings of ONE
  array, so each holds it at half the share; the output's array is held whole. After the body at a point the two
  input buffers hold their blocks as found and the output buffer holds the body's payload of those two blocks.
-/
import proofs.«165866_j79809082295156_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole vector's staging buffer holds the vector at every point, brought in at the first point and not
    moved since: its block index is the same at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second call on core `c`: the arrays as the call finds them; after the body at point `t`
    each input buffer at its block and the output buffer at the payload of the two blocks; the invariant the
    untouched scoped rest and generator register; nothing owed; the two readings of the shared array at half the
    share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Entry1.lean ====
/-
  The second soft-rank call's arrays, taken out of the core's unscoped buffers and put back.

  The call reads ONE array through two windows (a row block of it and the whole of it) and writes another through the
  third. So behind its three windows there are two buffers. Held whole, the read buffer is the same as its two halves
  held side by side, one for each reading window, and the written buffer is held whole by the output window: that is
  the passage, in both directions, between "the two buffers behind the call's arrays, whole" and "the call's three
  arrays at their shares". At the call's entry it is used one way, at its exit the other.
-/
import proofs.«165866_j79809082295156_1_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the call's three arrays are two: the one it reads twice and the one it writes. -/
theorem arrImage1 : Finset.univ.image (Pipeline.arrRef spec1) = ({main_v3, main_v4} : Finset (Ref sig .tc)) := by decide

variable {c : Dev nD} (dat : Dat τ (Elt F) Unit ℕ (UR sig nD τ) ℕ cfg1 c)

/-- The shares the three windows hold their arrays at: the two readings half each, the output whole. -/
theorem share1_0 (h : dat.q 0 = fullShare.left) : dat.share 0 = fullShare.left := by
  unfold Dat.share; rw [if_neg (by decide)]; exact h
theorem share1_1 (h : dat.q 1 = fullShare.right) : dat.share 1 = fullShare.right := by
  unfold Dat.share; rw [if_neg (by decide)]; exact h
theorem share1_2 : dat.share 2 = fullShare := by
  unfold Dat.share; rw [if_pos (by decide)]

/-- From the two buffers whole to the three arrays at their shares: the read buffer is split in two. -/
theorem arrays_of_arrBufs1 (hq0 : dat.q 0 = fullShare.left) (hq1 : dat.q 1 = fullShare.right)
    (Vc : (b : Ref sig .tc) → Buf (Elt F) ((c : Thread nD τ).loc b))
    (A : (w : Fin cfg1.W) → Buf (Elt F) ((cfg1.win w).arr.view.loc (c : Thread nD τ)))
    (hA : ∀ w, A w = Vc (Pipeline.arrRef spec1 w)) :
    (Pipeline.arrBufs (Ix := Unit) (Name := ℕ) (U := UR sig nD τ) (Lvl := ℕ) spec1 c Vc : sProp 𝕄) ⊢ dat.arrays A := by
  unfold Pipeline.arrBufs Dat.arrays
  rw [arrImage1, bigSep_insert (by decide), bigSep_singleton, bigSep_W1]
  rw [(arr_whole1 0).set_eq_univ, (arr_whole1 2).set_eq_univ,
    share1_0 dat hq0, share1_1 dat hq1, share1_2 dat, hA 0, hA 1, hA 2]
  show (iprop((((c : Thread nD τ).loc main_v3) ↦{fullShare} Vc main_v3) ∗ (((c : Thread nD τ).loc main_v4) ↦{fullShare} Vc main_v4)) : sProp 𝕄) ⊢ _
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- From the three arrays at their shares back to the two buffers whole: the two halves of the read buffer are
    joined. Both readings hold the same contents, so the joined buffer holds them. -/
theorem arrBufs_of_arrays1 (hq0 : dat.q 0 = fullShare.left) (hq1 : dat.q 1 = fullShare.right)
    (Vc : (b : Ref sig .tc) → Buf (Elt F) ((c : Thread nD τ).loc b))
    (A : (w : Fin cfg1.W) → Buf (Elt F) ((cfg1.win w).arr.view.loc (c : Thread nD τ)))
    (hA : ∀ w, A w = Vc (Pipeline.arrRef spec1 w)) :
    dat.arrays A ⊢ (Pipeline.arrBufs (Ix := Unit) (Name := ℕ) (U := UR sig nD τ) (Lvl := ℕ) spec1 c Vc : sProp 𝕄) := by
  unfold Pipeline.arrBufs Dat.arrays
  rw [arrImage1, bigSep_insert (by decide), bigSep_singleton, bigSep_W1]
  rw [(arr_whole1 0).set_eq_univ, (arr_whole1 2).set_eq_univ,
    share1_0 dat hq0, share1_1 dat hq1, share1_2 dat, hA 0, hA 1, hA 2]
  show _ ⊢ (iprop((((c : Thread nD τ).loc main_v3) ↦{fullShare} Vc main_v3) ∗ (((c : Thread nD τ).loc main_v4) ↦{fullShare} Vc main_v4)) : sProp 𝕄)
  iintro ⟨Ha, Hb, H1⟩
  isplitl [Ha Hb]
  · iapply (pointsTo_share (PosShare.mem_left_op_right fullShare)).2
    isplitl [Ha]; · iexact Ha
    iexact Hb
  iexact H1

end Cert.Kernel.Hand

end
-- ==== Proof.K.Fold.lean ====
/-
  The buffers' contents from item to item of the program, and each soft-rank call's buffers taken out of them and put
  back.

  The program is two soft-rank calls among three stretches of host operations. Between items a core holds every
  unscoped buffer whole at a known valuation. A host stretch moves the valuation by its operations. A soft-rank call
  takes its two buffers out of the valuation (the read one split between its two reading windows) and, when it is
  left, puts them back: the read one as it was, the written one at what the 32 write-backs leave. This module names
  those valuations, says what each call's arrays hold when it is left, and proves the two passages for each call.
-/
import proofs.«165866_j79809082295156_1_alg».proof.Proof.K.Entry0
import proofs.«165866_j79809082295156_1_alg».proof.Proof.K.Entry1
import proofs.«165866_j79809082295156_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- The contents the first call is entered at, read at the core's references: the launch memory after the first
    stretch. -/
abbrev E1 : (c : Dev nD) → (b : Ref sig .tc) → Buf (Elt F) ((c : Thread nD τ).loc b) := fun c b => Gen.V1 m c b
/-- What the first call leaves in the array it writes. -/
def arr0 (c : Dev nD) : Buf (Elt F) ((c : Thread nD τ).loc main_v1) := (dat0 (E1 m) c).arrAt 2 cfg0.N
/-- After the first call: the written array at what the call left, every other buffer as entered. -/
abbrev W2 (c : Dev nD) : Valuation τ sig (Elt F) := Function.update (Gen.V1 m c) main_v1 (arr0 m c)
/-- After the second stretch. -/
abbrev W3 (c : Dev nD) : Valuation τ sig (Elt F) := StableHlo.after hostOps1 (W2 m c)
/-- The contents the second call is entered at, read at the core's references. -/
abbrev E3 : (c : Dev nD) → (b : Ref sig .tc) → Buf (Elt F) ((c : Thread nD τ).loc b) := fun c b => W3 m c b
/-- What the second call leaves in the array it writes. -/
def arr1 (c : Dev nD) : Buf (Elt F) ((c : Thread nD τ).loc main_v4) := (dat1 (E3 m) c).arrAt 2 cfg1.N
/-- After the second call. -/
abbrev W4 (c : Dev nD) : Valuation τ sig (Elt F) := Function.update (W3 m c) main_v4 (arr1 m c)

/-- What the calls leave, as the table the conditional frame's valuations are written over: a buffer's contents
    after the second call. It is read only at the first call's written array after the first call, and at the
    second call's after the second. -/
def outs : Gen.Outs (F := F) := fun _ r c => W4 m c r

/-- The valuation each call is entered at and the one it is left at, by the call's number. -/
abbrev entryVal0 (c : Dev nD) : Valuation τ sig (Elt F) := Gen.V1 m c
abbrev exitVal0 (c : Dev nD) : Valuation τ sig (Elt F) := W2 m c
abbrev entryVal1 (c : Dev nD) : Valuation τ sig (Elt F) := W3 m c
abbrev exitVal1 (c : Dev nD) : Valuation τ sig (Elt F) := W4 m c

/-- The second stretch does not write the first call's array, and the second call writes another one: the table has
    the first call's result where the first valuation after it reads it. -/
theorem outs_2 (c : Dev nD) : outs m 2 main_v1 c = arr0 m c := by
  unfold outs
  rw [show W4 m c main_v1 = W3 m c main_v1 from Function.update_of_ne (StableHlo.devRef_ne_of_ne (by decide)) _ _]
  rw [show W3 m c main_v1 = W2 m c main_v1 from StableHlo.after_of_writes_sub hostOps1 _ Gen.hostOps1_writes (by decide)]
  exact Function.update_self _ _ _
theorem outs_4 (c : Dev nD) : outs m 4 main_v4 c = arr1 m c := by
  unfold outs; exact Function.update_self _ _ _

/-- So the conditional frame's valuations at this table are the fold above. -/
theorem V2_eq (c : Dev nD) : Gen.V2 m (outs m) c = W2 m c := by
  unfold Gen.V2; rw [outs_2]
theorem V3_eq (c : Dev nD) : Gen.V3 m (outs m) c = W3 m c := by
  unfold Gen.V3; rw [V2_eq]
theorem V4_eq (c : Dev nD) : Gen.V4 m (outs m) c = W4 m c := by
  unfold Gen.V4; rw [V3_eq, outs_4]

/-! ## The proof data family and what rides beside the buffers -/

/-- Each call's proof data at its entry contents: a literal match, so that the family at a numeral is the call's. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c

abbrev 𝒱₀ : Variants := Variants.none
/-- No core waits on another: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)

/-! ## What each call's arrays hold when it is left -/

/-- After the first call: the two readings of the read array hold what they found; the written array holds what
    the write-backs left. -/
theorem exit0 (c : Dev nD) (w : Fin cfg0.W) : (dat0 (E1 m) c).arrAt w cfg0.N = W2 m c (Pipeline.arrRef spec0 w) := by
  match w with
  | ⟨0, _⟩ =>
    refine (((dat0 (E1 m) c).arrAt_in 0 rfl _).trans (A_eq0 (E1 m) c 0)).trans ?_
    exact (Function.update_of_ne (StableHlo.devRef_ne_of_ne (by decide)) _ _).symm
  | ⟨1, _⟩ =>
    refine (((dat0 (E1 m) c).arrAt_in 1 rfl _).trans (A_eq0 (E1 m) c 1)).trans ?_
    exact (Function.update_of_ne (StableHlo.devRef_ne_of_ne (by decide)) _ _).symm
  | ⟨2, _⟩ => refine Eq.symm ?_; exact Function.update_self _ _ _
/-- Off the call's two buffers nothing changed. -/
theorem rest0 (c : Dev nD) (b : Ref sig .tc) (hb : b ∉ (Finset.univ.image (Pipeline.arrRef spec0) : Finset (Ref sig .tc))) : W2 m c b = Gen.V1 m c b := by
  rw [arrImage0] at hb
  have hne : b ≠ main_v1 := fun e => hb (by rw [e]; decide)
  exact Function.update_of_ne (StableHlo.devRef_ne_of_ne hne) _ _

theorem exit1 (c : Dev nD) (w : Fin cfg1.W) : (dat1 (E3 m) c).arrAt w cfg1.N = W4 m c (Pipeline.arrRef spec1 w) := by
  match w with
  | ⟨0, _⟩ =>
    refine (((dat1 (E3 m) c).arrAt_in 0 rfl _).trans (A_eq1 (E3 m) c 0)).trans ?_
    exact (Function.update_of_ne (StableHlo.devRef_ne_of_ne (by decide)) _ _).symm
  | ⟨1, _⟩ =>
    refine (((dat1 (E3 m) c).arrAt_in 1 rfl _).trans (A_eq1 (E3 m) c 1)).trans ?_
    exact (Function.update_of_ne (StableHlo.devRef_ne_of_ne (by decide)) _ _).symm
  | ⟨2, _⟩ => refine Eq.symm ?_; exact Function.update_self _ _ _
theorem rest1 (c : Dev nD) (b : Ref sig .tc) (hb : b ∉ (Finset.univ.image (Pipeline.arrRef spec1) : Finset (Ref sig .tc))) : W4 m c b = W3 m c b := by
  rw [arrImage1] at hb
  have hne : b ≠ main_v4 := fun e => hb (by rw [e]; decide)
  exact Function.update_of_ne (StableHlo.devRef_ne_of_ne hne) _ _

/-! ## The calls' buffers out of the valuation and back -/

/-- Entry of the first call: every unscoped buffer at the entry contents is the call's three arrays at their shares
    and the rest. -/
theorem enter0 (c : Dev nD) :
    (StableHlo.held (c : Thread nD τ) (Pipeline.ucRefs τ sig) (Gen.V1 m c) : sProp 𝕄)
      ⊢ iprop((dat0 (E1 m) c).arrays ((dat0 (E1 m) c).arrAt · 0)
          ∗ Pipeline.unscopedRest (Ix := Unit) (Name := ℕ) (U := UR sig nD τ) (Lvl := ℕ) spec0 c (E1 m c)) := by
  rw [← Pipeline.unscopedBufs_held (Ix := Unit) (Name := ℕ) (U := UR sig nD τ) (Lvl := ℕ) c (Gen.V1 m c),
    Pipeline.unscopedBufs_split₀ cfgs 0 Gen.winFacts₀0.arr_unscoped c (E1 m c)]
  exact sep_mono (arrays_of_arrBufs0 (dat0 (E1 m) c) rfl rfl (E1 m c) _ (fun w => A_eq0 (E1 m) c w)) .rfl

/-- Exit of the first call: its three arrays at what they hold when it is left, and the rest as entered, are every
    unscoped buffer at the valuation after the call. -/
theorem leave0 (c : Dev nD) :
    iprop((dat0 (E1 m) c).arrays ((dat0 (E1 m) c).arrAt · cfg0.N)
        ∗ Pipeline.unscopedRest (Ix := Unit) (Name := ℕ) (U := UR sig nD τ) (Lvl := ℕ) spec0 c (E1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 Gen.winFacts₀0.arr_unscoped c (fun b => W2 m c b)]
  refine sep_mono (arrBufs_of_arrays0 (dat0 (E1 m) c) rfl rfl (fun b => W2 m c b) _ (exit0 m c)) (Entails.of_eq ?_)
  unfold Pipeline.unscopedRest
  exact bigSep_congr fun b hb => by beta_reduce; rw [rest0 m c b (Finset.mem_sdiff.mp hb).2]

theorem enter1 (c : Dev nD) :
    (StableHlo.held (c : Thread nD τ) (Pipeline.ucRefs τ sig) (W3 m c) : sProp 𝕄)
      ⊢ iprop((dat1 (E3 m) c).arrays ((dat1 (E3 m) c).arrAt · 0)
          ∗ Pipeline.unscopedRest (Ix := Unit) (Name := ℕ) (U := UR sig nD τ) (Lvl := ℕ) spec1 c (E3 m c)) := by
  rw [← Pipeline.unscopedBufs_held (Ix := Unit) (Name := ℕ) (U := UR sig nD τ) (Lvl := ℕ) c (W3 m c),
    Pipeline.unscopedBufs_split₀ cfgs 1 Gen.winFacts₀1.arr_unscoped c (E3 m c)]
  exact sep_mono (arrays_of_arrBufs1 (dat1 (E3 m) c) rfl rfl (E3 m c) _ (fun w => A_eq1 (E3 m) c w)) .rfl

theorem leave1 (c : Dev nD) :
    iprop((dat1 (E3 m) c).arrays ((dat1 (E3 m) c).arrAt · cfg1.N)
        ∗ Pipeline.unscopedRest (Ix := Unit) (Name := ℕ) (U := UR sig nD τ) (Lvl := ℕ) spec1 c (E3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs 1 Gen.winFacts₀1.arr_unscoped c (fun b => W4 m c b)]
  refine sep_mono (arrBufs_of_arrays1 (dat1 (E3 m) c) rfl rfl (fun b => W4 m c b) _ (exit1 m c)) (Entails.of_eq ?_)
  unfold Pipeline.unscopedRest
  exact bigSep_congr fun b hb => by beta_reduce; rw [rest1 m c b (Finset.mem_sdiff.mp hb).2]

end Cert.Kernel.Hand

end
-- ==== Proof.K.Reg0.lean ====
/-
  The first soft-rank call as an item of the program's run.

  The call is entered from every unscoped buffer at its entry contents, beside the core's generator register at some
  state and the fact that the core owes nothing; it is left at the valuation after it, beside the same. Its arrays
  come out of the buffers at entry and go back at exit; the generator register goes into the call's invariant and
  comes out; the dues pass through; the kernel has no semaphore of its own.
-/
import proofs.«165866_j79809082295156_1_alg».proof.Proof.K.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the call's only when unification may unfold
-- plain definitions in a metavariable's type
set_option backward.isDefEq.respectTransparency.types false in
/-- The first soft-rank call as an item of the run. -/
def reg0 : RegionSeg (pcfgs (F := F)) Gen.adm (pdats m) () defs₀ 𝒱₀ L lv 0 where
  win := Gen.winFacts₀0
  block_pos := Gen.block_pos0
  stage_whole := Gen.stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (entryVal0 m c) ∗ R c)
  post c := iprop(StableHlo.held (c : Thread nD τ) (Pipeline.ucRefs τ sig) (exitVal0 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    iintro ⟨⟨Hub, Hp, HO⟩, -, -⟩
    ihave H := (enter0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c)
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Reg1.lean ====
/-
  The second soft-rank call as an item of the program's run.

  The call is entered from every unscoped buffer at its entry contents, beside the core's generator register at some
  state and the fact that the core owes nothing; it is left at the valuation after it, beside the same. Its arrays
  come out of the buffers at entry and go back at exit; the generator register goes into the call's invariant and
  comes out; the dues pass through; the kernel has no semaphore of its own.
-/
import proofs.«165866_j79809082295156_1_alg».proof.Proof.K.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the call's only when unification may unfold
-- plain definitions in a metavariable's type
set_option backward.isDefEq.respectTransparency.types false in
/-- The second soft-rank call as an item of the run. -/
def reg1 : RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (entryVal1 m c) ∗ R c)
  post c := iprop(StableHlo.held (c : Thread nD τ) (Pipeline.ucRefs τ sig) (exitVal1 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c)
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/-
  The whole program's run: two soft-rank calls among three stretches of host operations.

  From any memory with zero counters, every weakly fair execution of the program ends, nothing faulting. The run is
  followed item by item: a host stretch moves the valuation of the unscoped buffers by its operations; a soft-rank
  call takes its buffers out, runs its 32 grid points and puts them back. At the end every unscoped buffer is read
  off the last valuation: the result buffer holds the last stretch's operations applied to what the two calls left,
  and both argument arrays hold what they held at launch, because no item writes them.
-/
import proofs.«165866_j79809082295156_1_alg».proof.Proof.K.Reg0
import proofs.«165866_j79809082295156_1_alg».proof.Proof.K.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's five items on a core: stretch, call, stretch, call, stretch. -/
abbrev items := Gen.segs (F := F) m (outs m) 𝒱₀ L lv (fun _ c => R c) () (pdats m) (reg0 m) (reg1 m)

-- the launch theorem's implicit arguments are found by unifying its conclusion with this one, which takes unfolding
-- plain definitions in a metavariable's type
set_option backward.isDefEq.respectTransparency.types false in
/-- THE RUN. Every weakly fair execution from memory `m` with zero counters ends, nothing faulting, with the result
    buffer at the last valuation's contents and both argument arrays as launched. -/
theorem run_main : θ_run defs (onTc (τ := τ) (main (F := F))) ⟨m, fun _ => 0, ρ⟩ (fun r => ∀ c : Dev nD,
      r.2.mem ((c.tc : Thread nD τ).loc main_v24) = Gen.V5 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm (pdats m) () Gen.cellOf_inj emb₁ defs₀ 𝒱₀ L lv m ρ main
    (items m)
    (fun c Q => by
      rewrite [Gen.main_chain c, Seg.run_eq_chain,
        show (items m c).map Seg.prog = [
          StableHlo.seq Gen.hostOps0,
          Prog.lift (.customCall (Pipeline.entry 0) ()),
          StableHlo.seq Gen.hostOps1,
          Prog.lift (.customCall (Pipeline.entry 1) ()),
          StableHlo.seq Gen.hostOps2 ] from rfl]
      exact .rfl)
    (fun c => by simp only [items, Gen.segs, Seg.pipes_host, Seg.pipes_region, Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl,
      (show (iprop(StableHlo.held (c : Thread nD τ) (Pipeline.ucRefs τ sig) (W2 m c) ∗ R c) : sProp 𝕄)
          ⊢ iprop(StableHlo.held (c : Thread nD τ) (Pipeline.ucRefs τ sig) (Gen.V2 m (outs m) c) ∗ R c) from by rw [V2_eq]),
      (show (iprop(StableHlo.held (c : Thread nD τ) (Pipeline.ucRefs τ sig) (Gen.V3 m (outs m) c) ∗ R c) : sProp 𝕄)
          ⊢ iprop(StableHlo.held (c : Thread nD τ) (Pipeline.ucRefs τ sig) (W3 m c) ∗ R c) from by rw [V3_eq]),
      (show (iprop(StableHlo.held (c : Thread nD τ) (Pipeline.ucRefs τ sig) (W4 m c) ∗ R c) : sProp 𝕄)
          ⊢ iprop(StableHlo.held (c : Thread nD τ) (Pipeline.ucRefs τ sig) (Gen.V4 m (outs m) c) ∗ R c) from by rw [V4_eq]),
      (show (iprop(StableHlo.held (c : Thread nD τ) (Pipeline.ucRefs τ sig) (Gen.V5 m (outs m) c) ∗ R c) : sProp 𝕄)
          ⊢ iprop((StableHlo.held (c : Thread nD τ) (Pipeline.ucRefs τ sig) (Gen.V5 m (outs m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c =>
      ⟨h c _ (mem_uc main_v24 (by decide)),
        (h c _ (mem_uc main_arg0 (by decide))).trans (Gen.V5_main_arg0 m (outs m) c),
        (h c _ (mem_uc main_arg1 (by decide))).trans (Gen.V5_main_arg1 m (outs m) c)⟩)

end Cert.Kernel.Hand

end
-- ==== Proof.KI.Body0.lean ====
/-
  The first soft-rank call's body, as a triple in the program logic.

  At a grid point the body is handed three whole staging buffers: a row block of 256 entries of the vector, the
  whole vector as one row of 8192, and the output block of 256. It loads the first two whole, loads the third (and
  does not use what it read), and stores over the whole third the payload: for each of the 256 entries, the sum over
  the 8192 columns of the logistic of the difference, plus one. So after the body the two inputs hold what they
  held and the output holds that payload of the two inputs, whatever it held before.
-/
import proofs.«165866_j79809082295156_1_alg».proof.Proof.Gen.KernelIdeal.Launch
import proofs.«165866_j79809082295156_1_alg».proof.Proof.Gen.KernelIdeal.Skeleton
import proofs.«165866_j79809082295156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole row block of 256, as the rectangle the body loads and stores. -/
abbrev rRow : Rect S1x256 := Rect.unit (s := S1x256) ![0, 0] S1x256.size inb_S1x256_S1x256_0_0
/-- The whole row of 8192, as the rectangle the body loads. -/
abbrev rCol : Rect S1x8192 := Rect.unit (s := S1x8192) ![0, 0] S1x8192.size inb_S1x8192_S1x8192_0_0

/-- What the body leaves in the output buffer, from the two input buffers' contents: its one store, over the whole
    buffer, of the payload of the two loads. -/
def out0 (x0 : Vec F S1x256 .f32) (x1 : Vec F S1x8192 .f32) : Vec F S1x256 .f32 :=
  View.canon [⟨rRow, k0_pay1 (View.ld x0 rRow) (View.ld x1 rCol)⟩]

/-- The one store covers the output buffer. -/
theorem cover0 (p0 : Vec F S1x256 .f32) (y : S1x256.Idx) :
    ∃ pc ∈ ([⟨rRow, p0⟩] : List (View.Piece (Elt F) S1x256 .f32)), y ∈ pc.1.set :=
  View.cover_of_tiled [⟨rRow, p0⟩] S1x256.size (by rfl) y

set_option maxHeartbeats 1000000 in
/-- The body on whole staging buffers, the inputs at contents `x0`, `x1` and the output at anything, runs to the
    continuation holding the inputs as they were and the output at `out0 x0 x1`. -/
theorem sound_kernel0 (c : Dev nD) (E : Set ℕ) (i : grid0.Coords)
    (arg1 : Memref sig .tc .vmem S1x256 .f32) (harg1 : arg1.IsWhole)
    (arg2 : Memref sig .tc .vmem S1x8192 .f32) (harg2 : arg2.IsWhole)
    (arg3 : Memref sig .tc .vmem S1x256 .f32) (harg3 : arg3.IsWhole)
    (x0 : Vec F S1x256 .f32) (x1 : Vec F S1x8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) Variants.none c none) E (cc0__soft_rank_kernel i arg1 harg1 arg2 harg2 arg3 harg3) K := by
  simp only [cc0__soft_rank_kernel_eq_skeleton]; unfold cc0__soft_rank_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

end Cert.KernelIdeal.Hand

end
-- ==== Proof.KI.Dat0.lean ====
/-
  The first soft-rank call's proof data, and its body obligation at every grid point.

  The call has three windows. Window 0 is a row block of 256 entries of the vector, a new block at each of the 32
  grid points; window 1 is the whole vector as one row of 8192, the same block at every point (it is brought in once);
  window 2 is the output's row block of 256, written back at every point. Windows 0 and 1 are two readings of ONE
  array, so each holds it at half the share; the output's array is held whole. After the body at a point the two
  input buffers hold their blocks as found and the output buffer holds the body's payload of those two blocks.
-/
import proofs.«165866_j79809082295156_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole vector's staging buffer holds the vector at every point, brought in at the first point and not
    moved since: its block index is the same at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first call on core `c`: the arrays as the call finds them; after the body at point `t`
    each input buffer at its block and the output buffer at the payload of the two blocks; the invariant the
    untouched scoped rest and generator register; nothing owed; the two readings of the shared array at half the
    share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Entry0.lean ====
/-
  The first soft-rank call's arrays, taken out of the core's unscoped buffers and put back.

  The call reads ONE array through two windows (a row block of it and the whole of it) and writes another through the
  third. So behind its three windows there are two buffers. Held whole, the read buffer is the same as its two halves
  held side by side, one for each reading window, and the written buffer is held whole by the output window: that is
  the passage, in both directions, between "the two buffers behind the call's arrays, whole" and "the call's three
  arrays at their shares". At the call's entry it is used one way, at its exit the other.
-/
import proofs.«165866_j79809082295156_1_alg».proof.Proof.KI.Dat0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the call's three arrays are two: the one it reads twice and the one it writes. -/
theorem arrImage0 : Finset.univ.image (Pipeline.arrRef spec0) = ({main_v0, main_v1} : Finset (Ref sig .tc)) := by decide

variable {c : Dev nD} (dat : Dat τ (Elt F) Unit ℕ (UR sig nD τ) ℕ cfg0 c)

/-- The shares the three windows hold their arrays at: the two readings half each, the output whole. -/
theorem share0_0 (h : dat.q 0 = fullShare.left) : dat.share 0 = fullShare.left := by
  unfold Dat.share; rw [if_neg (by decide)]; exact h
theorem share0_1 (h : dat.q 1 = fullShare.right) : dat.share 1 = fullShare.right := by
  unfold Dat.share; rw [if_neg (by decide)]; exact h
theorem share0_2 : dat.share 2 = fullShare := by
  unfold Dat.share; rw [if_pos (by decide)]

/-- From the two buffers whole to the three arrays at their shares: the read buffer is split in two. -/
theorem arrays_of_arrBufs0 (hq0 : dat.q 0 = fullShare.left) (hq1 : dat.q 1 = fullShare.right)
    (Vc : (b : Ref sig .tc) → Buf (Elt F) ((c : Thread nD τ).loc b))
    (A : (w : Fin cfg0.W) → Buf (Elt F) ((cfg0.win w).arr.view.loc (c : Thread nD τ)))
    (hA : ∀ w, A w = Vc (Pipeline.arrRef spec0 w)) :
    (Pipeline.arrBufs (Ix := Unit) (Name := ℕ) (U := UR sig nD τ) (Lvl := ℕ) spec0 c Vc : sProp 𝕄) ⊢ dat.arrays A := by
  unfold Pipeline.arrBufs Dat.arrays
  rw [arrImage0, bigSep_insert (by decide), bigSep_singleton, bigSep_W0]
  rw [(arr_whole0 0).set_eq_univ, (arr_whole0 2).set_eq_univ,
    share0_0 dat hq0, share0_1 dat hq1, share0_2 dat, hA 0, hA 1, hA 2]
  show (iprop((((c : Thread nD τ).loc main_v0) ↦{fullShare} Vc main_v0) ∗ (((c : Thread nD τ).loc main_v1) ↦{fullShare} Vc main_v1)) : sProp 𝕄) ⊢ _
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- From the three arrays at their shares back to the two buffers whole: the two halves of the read buffer are
    joined. Both readings hold the same contents, so the joined buffer holds them. -/
theorem arrBufs_of_arrays0 (hq0 : dat.q 0 = fullShare.left) (hq1 : dat.q 1 = fullShare.right)
    (Vc : (b : Ref sig .tc) → Buf (Elt F) ((c : Thread nD τ).loc b))
    (A : (w : Fin cfg0.W) → Buf (Elt F) ((cfg0.win w).arr.view.loc (c : Thread nD τ)))
    (hA : ∀ w, A w = Vc (Pipeline.arrRef spec0 w)) :
    dat.arrays A ⊢ (Pipeline.arrBufs (Ix := Unit) (Name := ℕ) (U := UR sig nD τ) (Lvl := ℕ) spec0 c Vc : sProp 𝕄) := by
  unfold Pipeline.arrBufs Dat.arrays
  rw [arrImage0, bigSep_insert (by decide), bigSep_singleton, bigSep_W0]
  rw [(arr_whole0 0).set_eq_univ, (arr_whole0 2).set_eq_univ,
    share0_0 dat hq0, share0_1 dat hq1, share0_2 dat, hA 0, hA 1, hA 2]
  show _ ⊢ (iprop((((c : Thread nD τ).loc main_v0) ↦{fullShare} Vc main_v0) ∗ (((c : Thread nD τ).loc main_v1) ↦{fullShare} Vc main_v1)) : sProp 𝕄)
  iintro ⟨Ha, Hb, H1⟩
  isplitl [Ha Hb]
  · iapply (pointsTo_share (PosShare.mem_left_op_right fullShare)).2
    isplitl [Ha]; · iexact Ha
    iexact Hb
  iexact H1

end Cert.KernelIdeal.Hand

end
-- ==== Proof.KI.Body1.lean ====
/-
  The second soft-rank call's body, as a triple in the program logic.

  At a grid point the body is handed three whole staging buffers: a row block of 256 entries of the vector, the
  whole vector as one row of 8192, and the output block of 256. It loads the first two whole, loads the third (and
  does not use what it read), and stores over the whole third the payload: for each of the 256 entries, the sum over
  the 8192 columns of the logistic of the difference, plus one. So after the body the two inputs hold what they
  held and the output holds that payload of the two inputs, whatever it held before.
-/
import proofs.«165866_j79809082295156_1_alg».proof.Proof.Gen.KernelIdeal.Launch
import proofs.«165866_j79809082295156_1_alg».proof.Proof.Gen.KernelIdeal.Skeleton
import proofs.«165866_j79809082295156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole row block of 256, as the rectangle the body loads and stores. -/
abbrev rRow1 : Rect S1x256 := Rect.unit (s := S1x256) ![0, 0] S1x256.size inb_S1x256_S1x256_0_0
/-- The whole row of 8192, as the rectangle the body loads. -/
abbrev rCol1 : Rect S1x8192 := Rect.unit (s := S1x8192) ![0, 0] S1x8192.size inb_S1x8192_S1x8192_0_0

/-- What the body leaves in the output buffer, from the two input buffers' contents: its one store, over the whole
    buffer, of the payload of the two loads. -/
def out1 (x0 : Vec F S1x256 .f32) (x1 : Vec F S1x8192 .f32) : Vec F S1x256 .f32 :=
  View.canon [⟨rRow1, k1_pay1 (View.ld x0 rRow1) (View.ld x1 rCol1)⟩]

/-- The one store covers the output buffer. -/
theorem cover1 (p0 : Vec F S1x256 .f32) (y : S1x256.Idx) :
    ∃ pc ∈ ([⟨rRow1, p0⟩] : List (View.Piece (Elt F) S1x256 .f32)), y ∈ pc.1.set :=
  View.cover_of_tiled [⟨rRow1, p0⟩] S1x256.size (by rfl) y

set_option maxHeartbeats 1000000 in
/-- The body on whole staging buffers, the inputs at contents `x0`, `x1` and the output at anything, runs to the
    continuation holding the inputs as they were and the output at `out1 x0 x1`. -/
theorem sound_kernel1 (c : Dev nD) (E : Set ℕ) (i : grid1.Coords)
    (arg1 : Memref sig .tc .vmem S1x256 .f32) (harg1 : arg1.IsWhole)
    (arg2 : Memref sig .tc .vmem S1x8192 .f32) (harg2 : arg2.IsWhole)
    (arg3 : Memref sig .tc .vmem S1x256 .f32) (harg3 : arg3.IsWhole)
    (x0 : Vec F S1x256 .f32) (x1 : Vec F S1x8192 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1__soft_rank_kernel i arg1 harg1 arg2 harg2 arg3 harg3) K := by
  simp only [cc1__soft_rank_kernel_eq_skeleton]; unfold cc1__soft_rank_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

end Cert.KernelIdeal.Hand

end
-- ==== Proof.KI.Dat1.lean ====
/-
  The second soft-rank call's proof data, and its body obligation at every grid point.

  The call has three windows. Window 0 is a row block of 256 entries of the vector, a new block at each of the 32
  grid points; window 1 is the whole vector as one row of 8192, the same block at every point (it is brought in once);
  window 2 is the output's row block of 256, written back at every point. Windows 0 and 1 are two readings of ONE
  array, so each holds it at half the share; the output's array is held whole. After the body at a point the two
  input buffers hold their blocks as found and the output buffer holds the body's payload of those two blocks.
-/
import proofs.«165866_j79809082295156_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole vector's staging buffer holds the vector at every point, brought in at the first point and not
    moved since: its block index is the same at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second call on core `c`: the arrays as the call finds them; after the body at point `t`
    each input buffer at its block and the output buffer at the payload of the two blocks; the invariant the
    untouched scoped rest and generator register; nothing owed; the two readings of the shared array at half the
    share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Entry1.lean ====
/-
  The second soft-rank call's arrays, taken out of the core's unscoped buffers and put back.

  The call reads ONE array through two windows (a row block of it and the whole of it) and writes another through the
  third. So behind its three windows there are two buffers. Held whole, the read buffer is the same as its two halves
  held side by side, one for each reading window, and the written buffer is held whole by the output window: that is
  the passage, in both directions, between "the two buffers behind the call's arrays, whole" and "the call's three
  arrays at their shares". At the call's entry it is used one way, at its exit the other.
-/
import proofs.«165866_j79809082295156_1_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the call's three arrays are two: the one it reads twice and the one it writes. -/
theorem arrImage1 : Finset.univ.image (Pipeline.arrRef spec1) = ({main_v3, main_v4} : Finset (Ref sig .tc)) := by decide

variable {c : Dev nD} (dat : Dat τ (Elt F) Unit ℕ (UR sig nD τ) ℕ cfg1 c)

/-- The shares the three windows hold their arrays at: the two readings half each, the output whole. -/
theorem share1_0 (h : dat.q 0 = fullShare.left) : dat.share 0 = fullShare.left := by
  unfold Dat.share; rw [if_neg (by decide)]; exact h
theorem share1_1 (h : dat.q 1 = fullShare.right) : dat.share 1 = fullShare.right := by
  unfold Dat.share; rw [if_neg (by decide)]; exact h
theorem share1_2 : dat.share 2 = fullShare := by
  unfold Dat.share; rw [if_pos (by decide)]

/-- From the two buffers whole to the three arrays at their shares: the read buffer is split in two. -/
theorem arrays_of_arrBufs1 (hq0 : dat.q 0 = fullShare.left) (hq1 : dat.q 1 = fullShare.right)
    (Vc : (b : Ref sig .tc) → Buf (Elt F) ((c : Thread nD τ).loc b))
    (A : (w : Fin cfg1.W) → Buf (Elt F) ((cfg1.win w).arr.view.loc (c : Thread nD τ)))
    (hA : ∀ w, A w = Vc (Pipeline.arrRef spec1 w)) :
    (Pipeline.arrBufs (Ix := Unit) (Name := ℕ) (U := UR sig nD τ) (Lvl := ℕ) spec1 c Vc : sProp 𝕄) ⊢ dat.arrays A := by
  unfold Pipeline.arrBufs Dat.arrays
  rw [arrImage1, bigSep_insert (by decide), bigSep_singleton, bigSep_W1]
  rw [(arr_whole1 0).set_eq_univ, (arr_whole1 2).set_eq_univ,
    share1_0 dat hq0, share1_1 dat hq1, share1_2 dat, hA 0, hA 1, hA 2]
  show (iprop((((c : Thread nD τ).loc main_v3) ↦{fullShare} Vc main_v3) ∗ (((c : Thread nD τ).loc main_v4) ↦{fullShare} Vc main_v4)) : sProp 𝕄) ⊢ _
  iintro ⟨H0, H1⟩
  ihave H := (pointsTo_share (PosShare.mem_left_op_right fullShare)).1 $$ H0
  icases H with ⟨Ha, Hb⟩
  isplitl [Ha]; · iexact Ha
  isplitl [Hb]; · iexact Hb
  iexact H1

/-- From the three arrays at their shares back to the two buffers whole: the two halves of the read buffer are
    joined. Both readings hold the same contents, so the joined buffer holds them. -/
theorem arrBufs_of_arrays1 (hq0 : dat.q 0 = fullShare.left) (hq1 : dat.q 1 = fullShare.right)
    (Vc : (b : Ref sig .tc) → Buf (Elt F) ((c : Thread nD τ).loc b))
    (A : (w : Fin cfg1.W) → Buf (Elt F) ((cfg1.win w).arr.view.loc (c : Thread nD τ)))
    (hA : ∀ w, A w = Vc (Pipeline.arrRef spec1 w)) :
    dat.arrays A ⊢ (Pipeline.arrBufs (Ix := Unit) (Name := ℕ) (U := UR sig nD τ) (Lvl := ℕ) spec1 c Vc : sProp 𝕄) := by
  unfold Pipeline.arrBufs Dat.arrays
  rw [arrImage1, bigSep_insert (by decide), bigSep_singleton, bigSep_W1]
  rw [(arr_whole1 0).set_eq_univ, (arr_whole1 2).set_eq_univ,
    share1_0 dat hq0, share1_1 dat hq1, share1_2 dat, hA 0, hA 1, hA 2]
  show _ ⊢ (iprop((((c : Thread nD τ).loc main_v3) ↦{fullShare} Vc main_v3) ∗ (((c : Thread nD τ).loc main_v4) ↦{fullShare} Vc main_v4)) : sProp 𝕄)
  iintro ⟨Ha, Hb, H1⟩
  isplitl [Ha Hb]
  · iapply (pointsTo_share (PosShare.mem_left_op_right fullShare)).2
    isplitl [Ha]; · iexact Ha
    iexact Hb
  iexact H1

end Cert.KernelIdeal.Hand

end
-- ==== Proof.KI.Fold.lean ====
/-
  The buffers' contents from item to item of the program, and each soft-rank call's buffers taken out of them and put
  back.

  The program is two soft-rank calls among three stretches of host operations. Between items a core holds every
  unscoped buffer whole at a known valuation. A host stretch moves the valuation by its operations. A soft-rank call
  takes its two buffers out of the valuation (the read one split between its two reading windows) and, when it is
  left, puts them back: the read one as it was, the written one at what the 32 write-backs leave. This module names
  those valuations, says what each call's arrays hold when it is left, and proves the two passages for each call.
-/
import proofs.«165866_j79809082295156_1_alg».proof.Proof.KI.Entry0
import proofs.«165866_j79809082295156_1_alg».proof.Proof.KI.Entry1
import proofs.«165866_j79809082295156_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- The contents the first call is entered at, read at the core's references: the launch memory after the first
    stretch. -/
abbrev E1 : (c : Dev nD) → (b : Ref sig .tc) → Buf (Elt F) ((c : Thread nD τ).loc b) := fun c b => Gen.V1 m c b
/-- What the first call leaves in the array it writes. -/
def arr0 (c : Dev nD) : Buf (Elt F) ((c : Thread nD τ).loc main_v1) := (dat0 (E1 m) c).arrAt 2 cfg0.N
/-- After the first call: the written array at what the call left, every other buffer as entered. -/
abbrev W2 (c : Dev nD) : Valuation τ sig (Elt F) := Function.update (Gen.V1 m c) main_v1 (arr0 m c)
/-- After the second stretch. -/
abbrev W3 (c : Dev nD) : Valuation τ sig (Elt F) := StableHlo.after hostOps1 (W2 m c)
/-- The contents the second call is entered at, read at the core's references. -/
abbrev E3 : (c : Dev nD) → (b : Ref sig .tc) → Buf (Elt F) ((c : Thread nD τ).loc b) := fun c b => W3 m c b
/-- What the second call leaves in the array it writes. -/
def arr1 (c : Dev nD) : Buf (Elt F) ((c : Thread nD τ).loc main_v4) := (dat1 (E3 m) c).arrAt 2 cfg1.N
/-- After the second call. -/
abbrev W4 (c : Dev nD) : Valuation τ sig (Elt F) := Function.update (W3 m c) main_v4 (arr1 m c)

/-- What the calls leave, as the table the conditional frame's valuations are written over: a buffer's contents
    after the second call. It is read only at the first call's written array after the first call, and at the
    second call's after the second. -/
def outs : Gen.Outs (F := F) := fun _ r c => W4 m c r

/-- The valuation each call is entered at and the one it is left at, by the call's number. -/
abbrev entryVal0 (c : Dev nD) : Valuation τ sig (Elt F) := Gen.V1 m c
abbrev exitVal0 (c : Dev nD) : Valuation τ sig (Elt F) := W2 m c
abbrev entryVal1 (c : Dev nD) : Valuation τ sig (Elt F) := W3 m c
abbrev exitVal1 (c : Dev nD) : Valuation τ sig (Elt F) := W4 m c

/-- The second stretch does not write the first call's array, and the second call writes another one: the table has
    the first call's result where the first valuation after it reads it. -/
theorem outs_2 (c : Dev nD) : outs m 2 main_v1 c = arr0 m c := by
  unfold outs
  rw [show W4 m c main_v1 = W3 m c main_v1 from Function.update_of_ne (StableHlo.devRef_ne_of_ne (by decide)) _ _]
  rw [show W3 m c main_v1 = W2 m c main_v1 from StableHlo.after_of_writes_sub hostOps1 _ Gen.hostOps1_writes (by decide)]
  exact Function.update_self _ _ _
theorem outs_4 (c : Dev nD) : outs m 4 main_v4 c = arr1 m c := by
  unfold outs; exact Function.update_self _ _ _

/-- So the conditional frame's valuations at this table are the fold above. -/
theorem V2_eq (c : Dev nD) : Gen.V2 m (outs m) c = W2 m c := by
  unfold Gen.V2; rw [outs_2]
theorem V3_eq (c : Dev nD) : Gen.V3 m (outs m) c = W3 m c := by
  unfold Gen.V3; rw [V2_eq]
theorem V4_eq (c : Dev nD) : Gen.V4 m (outs m) c = W4 m c := by
  unfold Gen.V4; rw [V3_eq, outs_4]

/-! ## The proof data family and what rides beside the buffers -/

/-- Each call's proof data at its entry contents: a literal match, so that the family at a numeral is the call's. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c

abbrev 𝒱₀ : Variants := Variants.none
/-- No core waits on another: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)

/-! ## What each call's arrays hold when it is left -/

/-- After the first call: the two readings of the read array hold what they found; the written array holds what
    the write-backs left. -/
theorem exit0 (c : Dev nD) (w : Fin cfg0.W) : (dat0 (E1 m) c).arrAt w cfg0.N = W2 m c (Pipeline.arrRef spec0 w) := by
  match w with
  | ⟨0, _⟩ =>
    refine (((dat0 (E1 m) c).arrAt_in 0 rfl _).trans (A_eq0 (E1 m) c 0)).trans ?_
    exact (Function.update_of_ne (StableHlo.devRef_ne_of_ne (by decide)) _ _).symm
  | ⟨1, _⟩ =>
    refine (((dat0 (E1 m) c).arrAt_in 1 rfl _).trans (A_eq0 (E1 m) c 1)).trans ?_
    exact (Function.update_of_ne (StableHlo.devRef_ne_of_ne (by decide)) _ _).symm
  | ⟨2, _⟩ => refine Eq.symm ?_; exact Function.update_self _ _ _
/-- Off the call's two buffers nothing changed. -/
theorem rest0 (c : Dev nD) (b : Ref sig .tc) (hb : b ∉ (Finset.univ.image (Pipeline.arrRef spec0) : Finset (Ref sig .tc))) : W2 m c b = Gen.V1 m c b := by
  rw [arrImage0] at hb
  have hne : b ≠ main_v1 := fun e => hb (by rw [e]; decide)
  exact Function.update_of_ne (StableHlo.devRef_ne_of_ne hne) _ _

theorem exit1 (c : Dev nD) (w : Fin cfg1.W) : (dat1 (E3 m) c).arrAt w cfg1.N = W4 m c (Pipeline.arrRef spec1 w) := by
  match w with
  | ⟨0, _⟩ =>
    refine (((dat1 (E3 m) c).arrAt_in 0 rfl _).trans (A_eq1 (E3 m) c 0)).trans ?_
    exact (Function.update_of_ne (StableHlo.devRef_ne_of_ne (by decide)) _ _).symm
  | ⟨1, _⟩ =>
    refine (((dat1 (E3 m) c).arrAt_in 1 rfl _).trans (A_eq1 (E3 m) c 1)).trans ?_
    exact (Function.update_of_ne (StableHlo.devRef_ne_of_ne (by decide)) _ _).symm
  | ⟨2, _⟩ => refine Eq.symm ?_; exact Function.update_self _ _ _
theorem rest1 (c : Dev nD) (b : Ref sig .tc) (hb : b ∉ (Finset.univ.image (Pipeline.arrRef spec1) : Finset (Ref sig .tc))) : W4 m c b = W3 m c b := by
  rw [arrImage1] at hb
  have hne : b ≠ main_v4 := fun e => hb (by rw [e]; decide)
  exact Function.update_of_ne (StableHlo.devRef_ne_of_ne hne) _ _

/-! ## The calls' buffers out of the valuation and back -/

/-- Entry of the first call: every unscoped buffer at the entry contents is the call's three arrays at their shares
    and the rest. -/
theorem enter0 (c : Dev nD) :
    (StableHlo.held (c : Thread nD τ) (Pipeline.ucRefs τ sig) (Gen.V1 m c) : sProp 𝕄)
      ⊢ iprop((dat0 (E1 m) c).arrays ((dat0 (E1 m) c).arrAt · 0)
          ∗ Pipeline.unscopedRest (Ix := Unit) (Name := ℕ) (U := UR sig nD τ) (Lvl := ℕ) spec0 c (E1 m c)) := by
  rw [← Pipeline.unscopedBufs_held (Ix := Unit) (Name := ℕ) (U := UR sig nD τ) (Lvl := ℕ) c (Gen.V1 m c),
    Pipeline.unscopedBufs_split₀ cfgs 0 Gen.winFacts₀0.arr_unscoped c (E1 m c)]
  exact sep_mono (arrays_of_arrBufs0 (dat0 (E1 m) c) rfl rfl (E1 m c) _ (fun w => A_eq0 (E1 m) c w)) .rfl

/-- Exit of the first call: its three arrays at what they hold when it is left, and the rest as entered, are every
    unscoped buffer at the valuation after the call. -/
theorem leave0 (c : Dev nD) :
    iprop((dat0 (E1 m) c).arrays ((dat0 (E1 m) c).arrAt · cfg0.N)
        ∗ Pipeline.unscopedRest (Ix := Unit) (Name := ℕ) (U := UR sig nD τ) (Lvl := ℕ) spec0 c (E1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 Gen.winFacts₀0.arr_unscoped c (fun b => W2 m c b)]
  refine sep_mono (arrBufs_of_arrays0 (dat0 (E1 m) c) rfl rfl (fun b => W2 m c b) _ (exit0 m c)) (Entails.of_eq ?_)
  unfold Pipeline.unscopedRest
  exact bigSep_congr fun b hb => by beta_reduce; rw [rest0 m c b (Finset.mem_sdiff.mp hb).2]

theorem enter1 (c : Dev nD) :
    (StableHlo.held (c : Thread nD τ) (Pipeline.ucRefs τ sig) (W3 m c) : sProp 𝕄)
      ⊢ iprop((dat1 (E3 m) c).arrays ((dat1 (E3 m) c).arrAt · 0)
          ∗ Pipeline.unscopedRest (Ix := Unit) (Name := ℕ) (U := UR sig nD τ) (Lvl := ℕ) spec1 c (E3 m c)) := by
  rw [← Pipeline.unscopedBufs_held (Ix := Unit) (Name := ℕ) (U := UR sig nD τ) (Lvl := ℕ) c (W3 m c),
    Pipeline.unscopedBufs_split₀ cfgs 1 Gen.winFacts₀1.arr_unscoped c (E3 m c)]
  exact sep_mono (arrays_of_arrBufs1 (dat1 (E3 m) c) rfl rfl (E3 m c) _ (fun w => A_eq1 (E3 m) c w)) .rfl

theorem leave1 (c : Dev nD) :
    iprop((dat1 (E3 m) c).arrays ((dat1 (E3 m) c).arrAt · cfg1.N)
        ∗ Pipeline.unscopedRest (Ix := Unit) (Name := ℕ) (U := UR sig nD τ) (Lvl := ℕ) spec1 c (E3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c),
    Pipeline.unscopedBufs_split₀ cfgs 1 Gen.winFacts₀1.arr_unscoped c (fun b => W4 m c b)]
  refine sep_mono (arrBufs_of_arrays1 (dat1 (E3 m) c) rfl rfl (fun b => W4 m c b) _ (exit1 m c)) (Entails.of_eq ?_)
  unfold Pipeline.unscopedRest
  exact bigSep_congr fun b hb => by beta_reduce; rw [rest1 m c b (Finset.mem_sdiff.mp hb).2]

end Cert.KernelIdeal.Hand

end
-- ==== Proof.KI.Reg0.lean ====
/-
  The first soft-rank call as an item of the program's run.

  The call is entered from every unscoped buffer at its entry contents, beside the core's generator register at some
  state and the fact that the core owes nothing; it is left at the valuation after it, beside the same. Its arrays
  come out of the buffers at entry and go back at exit; the generator register goes into the call's invariant and
  comes out; the dues pass through; the kernel has no semaphore of its own.
-/
import proofs.«165866_j79809082295156_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the call's only when unification may unfold
-- plain definitions in a metavariable's type
set_option backward.isDefEq.respectTransparency.types false in
/-- The first soft-rank call as an item of the run. -/
def reg0 : RegionSeg (pcfgs (F := F)) Gen.adm (pdats m) () defs₀ 𝒱₀ L lv 0 where
  win := Gen.winFacts₀0
  block_pos := Gen.block_pos0
  stage_whole := Gen.stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (entryVal0 m c) ∗ R c)
  post c := iprop(StableHlo.held (c : Thread nD τ) (Pipeline.ucRefs τ sig) (exitVal0 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    iintro ⟨⟨Hub, Hp, HO⟩, -, -⟩
    ihave H := (enter0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave0 m c)
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  The second soft-rank call as an item of the program's run.

  The call is entered from every unscoped buffer at its entry contents, beside the core's generator register at some
  state and the fact that the core owes nothing; it is left at the valuation after it, beside the same. Its arrays
  come out of the buffers at entry and go back at exit; the generator register goes into the call's invariant and
  comes out; the dues pass through; the kernel has no semaphore of its own.
-/
import proofs.«165866_j79809082295156_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the call's only when unification may unfold
-- plain definitions in a metavariable's type
set_option backward.isDefEq.respectTransparency.types false in
/-- The second soft-rank call as an item of the run. -/
def reg1 : RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (entryVal1 m c) ∗ R c)
  post c := iprop(StableHlo.held (c : Thread nD τ) (Pipeline.ucRefs τ sig) (exitVal1 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    iintro ⟨⟨Hub, Hp, HO⟩, -, -⟩
    ihave H := (enter1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (leave1 m c)
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole program's run: two soft-rank calls among three stretches of host operations.

  From any memory with zero counters, every weakly fair execution of the program ends, nothing faulting. The run is
  followed item by item: a host stretch moves the valuation of the unscoped buffers by its operations; a soft-rank
  call takes its buffers out, runs its 32 grid points and puts them back. At the end every unscoped buffer is read
  off the last valuation: the result buffer holds the last stretch's operations applied to what the two calls left,
  and both argument arrays hold what they held at launch, because no item writes them.
-/
import proofs.«165866_j79809082295156_1_alg».proof.Proof.KI.Reg0
import proofs.«165866_j79809082295156_1_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's five items on a core: stretch, call, stretch, call, stretch. -/
abbrev items := Gen.segs (F := F) m (outs m) 𝒱₀ L lv (fun _ c => R c) () (pdats m) (reg0 m) (reg1 m)

-- the launch theorem's implicit arguments are found by unifying its conclusion with this one, which takes unfolding
-- plain definitions in a metavariable's type
set_option backward.isDefEq.respectTransparency.types false in
/-- THE RUN. Every weakly fair execution from memory `m` with zero counters ends, nothing faulting, with the result
    buffer at the last valuation's contents and both argument arrays as launched. -/
theorem run_main : θ_run defs (onTc (τ := τ) (main (F := F))) ⟨m, fun _ => 0, ρ⟩ (fun r => ∀ c : Dev nD,
      r.2.mem ((c.tc : Thread nD τ).loc main_v24) = Gen.V5 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) Gen.adm (pdats m) () Gen.cellOf_inj emb₁ defs₀ 𝒱₀ L lv m ρ main
    (items m)
    (fun c Q => by
      rewrite [Gen.main_chain c, Seg.run_eq_chain,
        show (items m c).map Seg.prog = [
          StableHlo.seq Gen.hostOps0,
          Prog.lift (.customCall (Pipeline.entry 0) ()),
          StableHlo.seq Gen.hostOps1,
          Prog.lift (.customCall (Pipeline.entry 1) ()),
          StableHlo.seq Gen.hostOps2 ] from rfl]
      exact .rfl)
    (fun c => by simp only [items, Gen.segs, Seg.pipes_host, Seg.pipes_region, Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl,
      (show (iprop(StableHlo.held (c : Thread nD τ) (Pipeline.ucRefs τ sig) (W2 m c) ∗ R c) : sProp 𝕄)
          ⊢ iprop(StableHlo.held (c : Thread nD τ) (Pipeline.ucRefs τ sig) (Gen.V2 m (outs m) c) ∗ R c) from by rw [V2_eq]),
      (show (iprop(StableHlo.held (c : Thread nD τ) (Pipeline.ucRefs τ sig) (Gen.V3 m (outs m) c) ∗ R c) : sProp 𝕄)
          ⊢ iprop(StableHlo.held (c : Thread nD τ) (Pipeline.ucRefs τ sig) (W3 m c) ∗ R c) from by rw [V3_eq]),
      (show (iprop(StableHlo.held (c : Thread nD τ) (Pipeline.ucRefs τ sig) (W4 m c) ∗ R c) : sProp 𝕄)
          ⊢ iprop(StableHlo.held (c : Thread nD τ) (Pipeline.ucRefs τ sig) (Gen.V4 m (outs m) c) ∗ R c) from by rw [V4_eq]),
      (show (iprop(StableHlo.held (c : Thread nD τ) (Pipeline.ucRefs τ sig) (Gen.V5 m (outs m) c) ∗ R c) : sProp 𝕄)
          ⊢ iprop((StableHlo.held (c : Thread nD τ) (Pipeline.ucRefs τ sig) (Gen.V5 m (outs m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c =>
      ⟨h c _ (mem_uc main_v24 (by decide)),
        (h c _ (mem_uc main_arg0 (by decide))).trans (Gen.V5_main_arg0 m (outs m) c),
        (h c _ (mem_uc main_arg1 (by decide))).trans (Gen.V5_main_arg1 m (outs m) c)⟩)

end Cert.KernelIdeal.Hand

end
-- ==== Proof.Spec.lean ====
/-
  The mathematics both programs compute, stated once over literal shapes and no program.

  For a vector x of 8192 extended reals, its SOFT RANK at entry i is one more than the sum over every entry j of the
  logistic function at the difference x i - x j: entry i is "ahead of" entry j to the degree sigma(x i - x j), and the
  rank counts how many entries it is ahead of, softly. The kernel forms it 256 rows at a time against the whole
  vector laid out as one row of 8192; the reference forms the whole 8192 by 8192 table of differences at once.
  At the extended reals these are one function, because the logistic of a difference is computed entry by entry
  and a row's sum does not depend on which rows are computed beside it.
-/
import Idealize.ShloMosaic.PureOps.Ideal
import Idealize.ShloMosaic.Lib.ValueIdx

noncomputable section

open scoped BigOperators

namespace Cert.Spec

open Idealize.ShloMosaic Idealize.ShloMosaic.ValueIdx

/-- The float word of one, as both programs print it. It is never evaluated where both sides carry it; only
    where the reference spells the logistic function out does it have to be the real number one (`one_eq`). -/
abbrev oneW : EReal := Ideal.ofBits .f32 0x3F800000#32

/-- The word `0x3F800000` denotes the real number one. -/
theorem one_eq : oneW = 1 := by
  simp [oneW, Ideal.ofBits, Ideal.ieee]
  rw [← EReal.coe_mul]
  norm_num

/-- The soft rank of a vector of 8192 entries: at entry `i`, the sum over all entries `k` of the logistic of
    `x i - x k`, plus one. -/
def softRank (x : (⟨1, ![8192]⟩ : Shape).Idx → EReal) : (⟨1, ![8192]⟩ : Shape).Idx → EReal :=
  fun i => (∑ k : Fin 8192, Ideal.logistic (x i - x (ix1 k))) + oneW

/-- The same function of a vector laid out as one row of 8192 columns, the layout the kernel's arrays have: the
    soft rank of the row, read at the column. -/
def softRankRow (x : (⟨2, ![1, 8192]⟩ : Shape).Idx → EReal) : (⟨2, ![1, 8192]⟩ : Shape).Idx → EReal :=
  fun j => (∑ k : Fin 8192, Ideal.logistic (x (ix2 (0 : Fin 1) (j 1)) - x (ix2 (0 : Fin 1) k))) + oneW

end Cert.Spec

end
-- ==== Proof.KI.Payload.lean ====
/-
  The kernel body's arithmetic, read at one output entry over the extended reals.

  Each of the two calls computes, from a row of 256 entries `x0` and a row of 8192 entries `x1`, the 256 values
  `(∑ k, σ (x0 r - x1 k)) + 1`, where σ is the logistic function. The body does it by standing the 256 entries up as a
  column and spreading that column over 8192 columns, spreading the row of 8192 over 256 rows, subtracting the two
  tables entry by entry, taking the logistic of each difference, summing each row of the table, and adding the word of
  one to each sum. Read at entry `r`, every reshape and spread names one entry of its operand (the column table at
  `(r, k)` is `x0 r`, the row table at `(r, k)` is `x1 k`), the entrywise operations act on that entry, and the row sum
  at `r` is the sum over the 8192 columns `k` of the table at `(r, k)`: the stated term.
-/
import proofs.«165866_j79809082295156_1_alg».proof.Proof.Gen.KernelIdeal.Skeleton
import proofs.«165866_j79809082295156_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## Two layout operations read at an index: a vector stood up as a column, and a column spread over many -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two operands of the difference, read at row `r` and column `k` -/

/-- The column operand: the 256 entries stood up as a column and spread over the 8192 columns read, at `(r, k)`,
    entry `r`. -/
theorem col_apply (x0 : Vec Ideal S1x256 .f32) (r : Fin 256) (k : Fin 8192) :
    broadcastTo S256x8192
        (shapeCast S256x1 (shapeCast S256 (shapeCast S1x256 x0 shapeCasts_S1x256_S1x256) shapeCasts_S1x256_S256)
          shapeCasts_S256_S256x1)
        broadcasts_S256x1_S256x8192 (ix2 r k)
      = x0 (ix2 (0 : Fin 1) r) := by
  refine (broadcastTo_a1_ab_apply _ _ r k).trans ?_
  refine (shapeCast_a_a1_apply _ _ r (0 : Fin 1)).trans ?_
  refine (shapeCast_1a_a_apply _ _ r).trans ?_
  rw [shapeCast_self]

/-- The row operand: the 8192 entries laid out as one row and spread over the 256 rows read, at `(r, k)`, entry `k`. -/
theorem row_apply (x1 : Vec Ideal S1x8192 .f32) (r : Fin 256) (k : Fin 8192) :
    broadcastTo S256x8192
        (shapeCast S1x8192 (shapeCast S8192 (shapeCast S1x8192 x1 shapeCasts_S1x8192_S1x8192) shapeCasts_S1x8192_S8192)
          shapeCasts_S8192_S1x8192)
        broadcasts_S1x8192_S256x8192 (ix2 r k)
      = x1 (ix2 (0 : Fin 1) k) := by
  refine (broadcastTo_1b_ab_apply _ _ r k).trans ?_
  refine (shapeCast_a_1a_apply _ _ (0 : Fin 1) k).trans ?_
  refine (shapeCast_1a_a_apply _ _ k).trans ?_
  rw [shapeCast_self]

/-! ## The sum along the row -/

/-- The sum over axis 1 of a 256 by 8192 table read at row `r`: the sum over the 8192 columns of that row. -/
theorem laneSum_apply (src : FVec Ideal S256x8192 .f32) (hφ : FKind.Formats .f32)
    (hacc : (0x00000000#32 : BitVec FTy.f32.bits) = FKind.add.neutral .f32 hφ) (r : Fin 256) :
    multiReduction (F := Ideal) .add [1] S256 src 0x00000000#32 reduces_S256x8192_S256 hφ hacc (ix1 r)
      = ∑ k : Fin 8192, src (ix2 r k) := by
  refine (Ideal.multiReduction_add_single src _ reduces_S256x8192_S256 hφ hacc (ix1 r)).trans ?_
  refine Finset.sum_congr rfl fun k _ => congrArg src ?_
  funext c
  refine Fin.ext ?_
  match c with
  | ⟨0, _⟩ => rfl
  | ⟨1, _⟩ => rfl

/-! ## The payload at an entry -/

/-- The first call's payload at entry `r`: the sum over all 8192 entries `k` of the logistic of `x0 r - x1 k`, plus
    the word of one. -/
theorem pay0_apply (x0 : Vec Ideal S1x256 .f32) (x1 : Vec Ideal S1x8192 .f32) (r : Fin 256) :
    k0_pay1 (F := Ideal) x0 x1 (ix2 (0 : Fin 1) r)
      = (∑ k : Fin 8192, Ideal.logistic (x0 (ix2 (0 : Fin 1) r) - x1 (ix2 (0 : Fin 1) k)))
          + Cert.Spec.oneW := by
  unfold k0_pay1
  refine (shapeCast_a_1a_apply _ _ (0 : Fin 1) r).trans ?_
  refine (addf_apply _ _ (ix1 r)).trans ?_
  refine congrArg₂ (· + ·) ?_ rfl
  refine (laneSum_apply _ _ _ r).trans ?_
  refine Finset.sum_congr rfl fun k _ => ?_
  refine congrArg Ideal.logistic ?_
  exact congrArg₂ (· - ·) (col_apply x0 r k) (row_apply x1 r k)

/-- The second call's payload at entry `r`: the same body, so the same term. -/
theorem pay1_apply (x0 : Vec Ideal S1x256 .f32) (x1 : Vec Ideal S1x8192 .f32) (r : Fin 256) :
    k1_pay1 (F := Ideal) x0 x1 (ix2 (0 : Fin 1) r)
      = (∑ k : Fin 8192, Ideal.logistic (x0 (ix2 (0 : Fin 1) r) - x1 (ix2 (0 : Fin 1) k)))
          + Cert.Spec.oneW := by
  unfold k1_pay1
  refine (shapeCast_a_1a_apply _ _ (0 : Fin 1) r).trans ?_
  refine (addf_apply _ _ (ix1 r)).trans ?_
  refine congrArg₂ (· + ·) ?_ rfl
  refine (laneSum_apply _ _ _ r).trans ?_
  refine Finset.sum_congr rfl fun k _ => ?_
  refine congrArg Ideal.logistic ?_
  exact congrArg₂ (· - ·) (col_apply x0 r k) (row_apply x1 r k)

end Cert.KernelIdeal.Payload

end
-- ==== Proof.KI.Value0.lean ====
/-
  The first soft-rank call's output array after its last grid point: the soft rank of its input array.

  The call visits 32 points. At point t the output's staging buffer is written back over columns 256 t … 256 t + 255
  of the output row of 8192, and what it holds there is the body's payload of two reads of ONE input row x: columns
  256 t … 256 t + 255 of x (a row block of 256) and all of x (one row of 8192). The payload at entry q of the block
  is the sum over the 8192 columns k of the logistic of (block entry q) - (row entry k), plus one; the block's entry
  q is x at column 256 t + q and the row's entry k is x at column k, so the payload at q is the soft rank of x at
  column 256 t + q: point t writes back block t of the soft rank of x. Column j of the output lies in the block of
  point j / 256, every point writes its block back, and a block written twice would be written with the same
  values; so after the last point the output row is the soft rank of x, entry by entry.
-/
import proofs.«165866_j79809082295156_1_alg».proof.Proof.KI.Dat0
import proofs.«165866_j79809082295156_1_alg».proof.Proof.KI.Payload
import proofs.«165866_j79809082295156_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The payload of the two blocks, entry by entry -/

/-- The offsets of a whole rank-2 block are zero on both axes. -/
theorem offsets0_zero : (![0, 0] : Fin 2 → Nat) = fun _ => 0 :=
  funext fun a => match a with | ⟨0, _⟩ => rfl | ⟨1, _⟩ => rfl

/-- What the body leaves in the output block, at entry `q`: the sum over the 8192 columns `k` of the logistic of
    the row block's entry `q` less the whole row's entry `k`, plus one. The body's one store covers the block and its
    two loads read the whole of their buffers. -/
theorem out0_entry (x0 : Vec Ideal S1x256 .f32) (x1 : Vec Ideal S1x8192 .f32) (q : Fin 256) :
    out0 (F := Ideal) x0 x1 (ix2 (0 : Fin 1) q)
      = (∑ k : Fin 8192, Ideal.logistic (x0 (ix2 (0 : Fin 1) q) - x1 (ix2 (0 : Fin 1) k))) + Cert.Spec.oneW := by
  unfold out0
  rw [View.canon_unit_zero offsets0_zero, View.ld_unit_zero offsets0_zero, View.ld_unit_zero offsets0_zero]
  exact Cert.KernelIdeal.Payload.pay0_apply x0 x1 q

/-- When the row block's entry under `y` is the row `X` at the column of `i`, and the whole-row block is `X` column
    by column, the output block at `y` is the soft rank of `X` at `i`: the two sums have the same terms. -/
theorem out0_softRank (X : S1x8192.Idx → EReal) (x0 : Vec Ideal S1x256 .f32) (x1 : Vec Ideal S1x8192 .f32)
    (y : S1x256.Idx) (i : S1x8192.Idx)
    (h0 : x0 (ix2 (0 : Fin 1) (y 1)) = X (ix2 (0 : Fin 1) (i 1)))
    (h1 : ∀ k : Fin 8192, x1 (ix2 (0 : Fin 1) k) = X (ix2 (0 : Fin 1) k)) :
    out0 (F := Ideal) x0 x1 y = Cert.Spec.softRankRow X i := by
  obtain ⟨p, q, rfl⟩ : ∃ (p : Fin 1) (q : Fin 256), y = ix2 p q := ⟨y 0, y 1, eq_ix2 y⟩
  obtain rfl : p = 0 := Subsingleton.elim _ _
  rw [out0_entry]
  unfold Cert.Spec.softRankRow
  refine congrArg₂ (· + ·) ?_ rfl
  refine Finset.sum_congr rfl fun k _ => ?_
  refine congrArg Ideal.logistic ?_
  exact congrArg₂ (· - ·) h0 (h1 k)

/-! ## Where the three blocks sit at a grid point -/

/-- The block indices at point `t`, decided once over the 32 points: the output's block and the row block are both
    block `(0, t)`, the whole row is block `(0, 0)`. -/
theorem index_facts0 : ∀ t : Fin cfg0.N, win0_2.index t (0 : Fin 2) = 0 ∧ win0_2.index t (1 : Fin 2) = t.val
    ∧ win0_0.index t (0 : Fin 2) = 0 ∧ win0_0.index t (1 : Fin 2) = t.val
    ∧ win0_1.index t (0 : Fin 2) = 0 ∧ win0_1.index t (1 : Fin 2) = 0 :=
  (by decide +kernel : ∀ t : Fin grid0.N, _)

-- the core's buffer contents when the call is entered
variable (V : (c : Dev nD) → (b : Ref sig .tc) → Buf (Elt Ideal) ((c : Thread nD τ).loc b))

/-- What point `t` writes back is block `t` of the soft rank of the input row. Entry `y` of the output block sits
    at column `256 t + y` of the output row; the row block's entry `y` is the input row at column `256 t + y`, the
    same column, because the two windows have the same block index; and the whole-row block's entry `k` is the
    input row at column `k`, because its block index is zero. A coordinate of a block's entry in its array is the
    block index times the block's extent plus the coordinate inside the block. -/
theorem flushed0_eq (c : Dev nD) (t : Fin cfg0.N) :
    (dat0 (F := Ideal) V c).flushed 2 t
      = ((cfg0.win 2).blk t).view.read (Elt Ideal) (Cert.Spec.softRankRow (V c main_v0)) := by
  show (cfg0.win 2).cut (grid0.coords t) ((dat0 (F := Ideal) V c).after 2 t) = _
  rw [after0_2]
  obtain ⟨e0, e1, e2, e3, e4, e5⟩ := index_facts0 t
  funext y
  refine out0_softRank (V c main_v0) (iblk0 V c 0 t) (iblk0 V c 1 t) y (((cfg0.win 2).blk t).view.emb y) ?_ ?_
  · show V c main_v0 (((cfg0.win 0).blk t).view.emb (ix2 (0 : Fin 1) (y 1))) = V c main_v0 _
    refine congrArg (V c main_v0) (funext fun a => Fin.ext ?_)
    match a with
    | ⟨0, _⟩ => show win0_0.index t (0 : Fin 2) * 1 + 1 * 0 = 0; omega
    | ⟨1, _⟩ =>
      show win0_0.index t (1 : Fin 2) * 256 + 1 * (y 1).val = win0_2.index t (1 : Fin 2) * 256 + 1 * (y 1).val
      omega
  · intro k
    show V c main_v0 (((cfg0.win 1).blk t).view.emb (ix2 (0 : Fin 1) k)) = V c main_v0 _
    refine congrArg (V c main_v0) (funext fun a => Fin.ext ?_)
    match a with
    | ⟨0, _⟩ => show win0_1.index t (0 : Fin 2) * 1 + 1 * 0 = 0; omega
    | ⟨1, _⟩ => show win0_1.index t (1 : Fin 2) * 8192 + 1 * k.val = k.val; omega

/-! ## The blocks cover the output row -/

/-- An index of the output row is in point `t`'s block iff each coordinate is in the block's range on its axis. -/
theorem mem_blk0 (t : Fin cfg0.N) (i : S1x8192.Idx) :
    i ∈ ((cfg0.win 2).blk t).view.set ↔ ∀ a : Fin 2, win0_2.index t a * S1x256.size a ≤ (i a).val
      ∧ (i a).val < win0_2.index t a * S1x256.size a + S1x256.size a := by
  show i ∈ ((View.whole main_v1).slice (win0_2.rect t)).set ↔ _
  rw [View.set_slice_whole, Rect.mem_set_unit]
  exact Iff.rfl

/-- Every index of the output row is in the block of a point that writes back: column `j` is in the block of point
    `j / 256`, whose columns are `256 (j / 256) … 256 (j / 256) + 255`, and every point writes back. -/
theorem covered0 (i : S1x8192.Idx) :
    ∃ t : Fin cfg0.N, (cfg0.win 2).flush t = true ∧ i ∈ ((cfg0.win 2).blk t).view.set := by
  have hi0 : (i 0).val < 1 := (i 0).isLt
  have hi1 : (i 1).val < 8192 := (i 1).isLt
  have ht : (i 1).val / 256 < cfg0.N := lt_of_lt_of_eq (by omega) N_0.symm
  obtain ⟨e0, e1, -⟩ := index_facts0 ⟨(i 1).val / 256, ht⟩
  refine ⟨⟨(i 1).val / 256, ht⟩, flush0_2 _, ?_⟩
  rw [mem_blk0]
  intro a
  match a with
  | ⟨0, _⟩ =>
    show win0_2.index ⟨(i 1).val / 256, ht⟩ (0 : Fin 2) * 1 ≤ (i 0).val
      ∧ (i 0).val < win0_2.index ⟨(i 1).val / 256, ht⟩ (0 : Fin 2) * 1 + 1
    omega
  | ⟨1, _⟩ =>
    show win0_2.index ⟨(i 1).val / 256, ht⟩ (1 : Fin 2) * 256 ≤ (i 1).val
      ∧ (i 1).val < win0_2.index ⟨(i 1).val / 256, ht⟩ (1 : Fin 2) * 256 + 256
    rw [e1]
    show (i 1).val / 256 * 256 ≤ (i 1).val ∧ (i 1).val < (i 1).val / 256 * 256 + 256
    omega

/-! ## The output row after the last point -/

/-- After the last grid point the output row is the soft rank of the input row as the call found it: every point
    writes back its block of that one function, and the blocks cover the row. -/
theorem final0 (c : Dev nD) :
    (dat0 (F := Ideal) V c).arrAt 2 cfg0.N = Cert.Spec.softRankRow (V c main_v0) :=
  (dat0 (F := Ideal) V c).arrAt_eq_of_cover 2 (Cert.Spec.softRankRow (V c main_v0))
    (fun t _ => flushed0_eq V c t) covered0

end Cert.KernelIdeal.Hand

end
-- ==== Proof.KI.Value1.lean ====
/-
  The second soft-rank call's output array after its last grid point: the soft rank of its input array.

  The call visits 32 points. At point t the output's staging buffer is written back over columns 256 t … 256 t + 255
  of the output row of 8192, and what it holds there is the body's payload of two reads of ONE input row x: columns
  256 t … 256 t + 255 of x (a row block of 256) and all of x (one row of 8192). The payload at entry q of the block
  is the sum over the 8192 columns k of the logistic of (block entry q) - (row entry k), plus one; the block's entry
  q is x at column 256 t + q and the row's entry k is x at column k, so the payload at q is the soft rank of x at
  column 256 t + q: point t writes back block t of the soft rank of x. Column j of the output lies in the block of
  point j / 256, every point writes its block back, and a block written twice would be written with the same
  values; so after the last point the output row is the soft rank of x, entry by entry.
-/
import proofs.«165866_j79809082295156_1_alg».proof.Proof.KI.Dat1
import proofs.«165866_j79809082295156_1_alg».proof.Proof.KI.Payload
import proofs.«165866_j79809082295156_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The payload of the two blocks, entry by entry -/

/-- The offsets of a whole rank-2 block are zero on both axes. -/
theorem offsets1_zero : (![0, 0] : Fin 2 → Nat) = fun _ => 0 :=
  funext fun a => match a with | ⟨0, _⟩ => rfl | ⟨1, _⟩ => rfl

/-- What the body leaves in the output block, at entry `q`: the sum over the 8192 columns `k` of the logistic of
    the row block's entry `q` less the whole row's entry `k`, plus one. The body's one store covers the block and its
    two loads read the whole of their buffers. -/
theorem out1_entry (x0 : Vec Ideal S1x256 .f32) (x1 : Vec Ideal S1x8192 .f32) (q : Fin 256) :
    out1 (F := Ideal) x0 x1 (ix2 (0 : Fin 1) q)
      = (∑ k : Fin 8192, Ideal.logistic (x0 (ix2 (0 : Fin 1) q) - x1 (ix2 (0 : Fin 1) k))) + Cert.Spec.oneW := by
  unfold out1
  rw [View.canon_unit_zero offsets1_zero, View.ld_unit_zero offsets1_zero, View.ld_unit_zero offsets1_zero]
  exact Cert.KernelIdeal.Payload.pay1_apply x0 x1 q

/-- When the row block's entry under `y` is the row `X` at the column of `i`, and the whole-row block is `X` column
    by column, the output block at `y` is the soft rank of `X` at `i`: the two sums have the same terms. -/
theorem out1_softRank (X : S1x8192.Idx → EReal) (x0 : Vec Ideal S1x256 .f32) (x1 : Vec Ideal S1x8192 .f32)
    (y : S1x256.Idx) (i : S1x8192.Idx)
    (h0 : x0 (ix2 (0 : Fin 1) (y 1)) = X (ix2 (0 : Fin 1) (i 1)))
    (h1 : ∀ k : Fin 8192, x1 (ix2 (0 : Fin 1) k) = X (ix2 (0 : Fin 1) k)) :
    out1 (F := Ideal) x0 x1 y = Cert.Spec.softRankRow X i := by
  obtain ⟨p, q, rfl⟩ : ∃ (p : Fin 1) (q : Fin 256), y = ix2 p q := ⟨y 0, y 1, eq_ix2 y⟩
  obtain rfl : p = 0 := Subsingleton.elim _ _
  rw [out1_entry]
  unfold Cert.Spec.softRankRow
  refine congrArg₂ (· + ·) ?_ rfl
  refine Finset.sum_congr rfl fun k _ => ?_
  refine congrArg Ideal.logistic ?_
  exact congrArg₂ (· - ·) h0 (h1 k)

/-! ## Where the three blocks sit at a grid point -/

/-- The block indices at point `t`, decided once over the 32 points: the output's block and the row block are both
    block `(0, t)`, the whole row is block `(0, 0)`. -/
theorem index_facts1 : ∀ t : Fin cfg1.N, win1_2.index t (0 : Fin 2) = 0 ∧ win1_2.index t (1 : Fin 2) = t.val
    ∧ win1_0.index t (0 : Fin 2) = 0 ∧ win1_0.index t (1 : Fin 2) = t.val
    ∧ win1_1.index t (0 : Fin 2) = 0 ∧ win1_1.index t (1 : Fin 2) = 0 :=
  (by decide +kernel : ∀ t : Fin grid1.N, _)

-- the core's buffer contents when the call is entered
variable (V : (c : Dev nD) → (b : Ref sig .tc) → Buf (Elt Ideal) ((c : Thread nD τ).loc b))

/-- What point `t` writes back is block `t` of the soft rank of the input row. Entry `y` of the output block sits
    at column `256 t + y` of the output row; the row block's entry `y` is the input row at column `256 t + y`, the
    same column, because the two windows have the same block index; and the whole-row block's entry `k` is the
    input row at column `k`, because its block index is zero. A coordinate of a block's entry in its array is the
    block index times the block's extent plus the coordinate inside the block. -/
theorem flushed1_eq (c : Dev nD) (t : Fin cfg1.N) :
    (dat1 (F := Ideal) V c).flushed 2 t
      = ((cfg1.win 2).blk t).view.read (Elt Ideal) (Cert.Spec.softRankRow (V c main_v3)) := by
  show (cfg1.win 2).cut (grid1.coords t) ((dat1 (F := Ideal) V c).after 2 t) = _
  rw [after1_2]
  obtain ⟨e0, e1, e2, e3, e4, e5⟩ := index_facts1 t
  funext y
  refine out1_softRank (V c main_v3) (iblk1 V c 0 t) (iblk1 V c 1 t) y (((cfg1.win 2).blk t).view.emb y) ?_ ?_
  · show V c main_v3 (((cfg1.win 0).blk t).view.emb (ix2 (0 : Fin 1) (y 1))) = V c main_v3 _
    refine congrArg (V c main_v3) (funext fun a => Fin.ext ?_)
    match a with
    | ⟨0, _⟩ => show win1_0.index t (0 : Fin 2) * 1 + 1 * 0 = 0; omega
    | ⟨1, _⟩ =>
      show win1_0.index t (1 : Fin 2) * 256 + 1 * (y 1).val = win1_2.index t (1 : Fin 2) * 256 + 1 * (y 1).val
      omega
  · intro k
    show V c main_v3 (((cfg1.win 1).blk t).view.emb (ix2 (0 : Fin 1) k)) = V c main_v3 _
    refine congrArg (V c main_v3) (funext fun a => Fin.ext ?_)
    match a with
    | ⟨0, _⟩ => show win1_1.index t (0 : Fin 2) * 1 + 1 * 0 = 0; omega
    | ⟨1, _⟩ => show win1_1.index t (1 : Fin 2) * 8192 + 1 * k.val = k.val; omega

/-! ## The blocks cover the output row -/

/-- An index of the output row is in point `t`'s block iff each coordinate is in the block's range on its axis. -/
theorem mem_blk1 (t : Fin cfg1.N) (i : S1x8192.Idx) :
    i ∈ ((cfg1.win 2).blk t).view.set ↔ ∀ a : Fin 2, win1_2.index t a * S1x256.size a ≤ (i a).val
      ∧ (i a).val < win1_2.index t a * S1x256.size a + S1x256.size a := by
  show i ∈ ((View.whole main_v4).slice (win1_2.rect t)).set ↔ _
  rw [View.set_slice_whole, Rect.mem_set_unit]
  exact Iff.rfl

/-- Every index of the output row is in the block of a point that writes back: column `j` is in the block of point
    `j / 256`, whose columns are `256 (j / 256) … 256 (j / 256) + 255`, and every point writes back. -/
theorem covered1 (i : S1x8192.Idx) :
    ∃ t : Fin cfg1.N, (cfg1.win 2).flush t = true ∧ i ∈ ((cfg1.win 2).blk t).view.set := by
  have hi0 : (i 0).val < 1 := (i 0).isLt
  have hi1 : (i 1).val < 8192 := (i 1).isLt
  have ht : (i 1).val / 256 < cfg1.N := lt_of_lt_of_eq (by omega) N_1.symm
  obtain ⟨e0, e1, -⟩ := index_facts1 ⟨(i 1).val / 256, ht⟩
  refine ⟨⟨(i 1).val / 256, ht⟩, flush1_2 _, ?_⟩
  rw [mem_blk1]
  intro a
  match a with
  | ⟨0, _⟩ =>
    show win1_2.index ⟨(i 1).val / 256, ht⟩ (0 : Fin 2) * 1 ≤ (i 0).val
      ∧ (i 0).val < win1_2.index ⟨(i 1).val / 256, ht⟩ (0 : Fin 2) * 1 + 1
    omega
  | ⟨1, _⟩ =>
    show win1_2.index ⟨(i 1).val / 256, ht⟩ (1 : Fin 2) * 256 ≤ (i 1).val
      ∧ (i 1).val < win1_2.index ⟨(i 1).val / 256, ht⟩ (1 : Fin 2) * 256 + 256
    rw [e1]
    show (i 1).val / 256 * 256 ≤ (i 1).val ∧ (i 1).val < (i 1).val / 256 * 256 + 256
    omega

/-! ## The output row after the last point -/

/-- After the last grid point the output row is the soft rank of the input row as the call found it: every point
    writes back its block of that one function, and the blocks cover the row. -/
theorem final1 (c : Dev nD) :
    (dat1 (F := Ideal) V c).arrAt 2 cfg1.N = Cert.Spec.softRankRow (V c main_v3) :=
  (dat1 (F := Ideal) V c).arrAt_eq_of_cover 2 (Cert.Spec.softRankRow (V c main_v3))
    (fun t _ => flushed1_eq V c t) covered1

end Cert.KernelIdeal.Hand

end
-- ==== Proof.RowForm.lean ====
/-
  The soft rank of a vector and of the same vector laid out as one row are one function.

  The kernel's calls take the vector as a [1, 8192] array and leave the ranks as a [1, 8192] array; the program
  reshapes a vector of 8192 entries into that row before each call and the row of ranks back into a vector after it.
  A reshape between [8192] and [1, 8192] keeps entry i at column i, so the row form's soft rank, read through the two
  reshapes, is the vector form's.
-/
import proofs.«165866_j79809082295156_1_alg».proof.Proof.Spec
import Idealize.ShloMosaic.Lib.ValueLayout
import Idealize.ShloMosaic.Lib.Pipeline.Value

noncomputable section

open scoped BigOperators

namespace Cert.Spec

open Idealize.ShloMosaic Idealize.ShloMosaic.ValueIdx

/-- Reshape a vector into a row, take the row's soft rank, reshape back: the vector's soft rank. -/
theorem softRank_of_row (x : (⟨1, ![8192]⟩ : Shape).Idx → EReal)
    (h1 : (⟨1, ![8192]⟩ : Shape).ShapeCasts ⟨2, ![1, 8192]⟩) (h2 : (⟨2, ![1, 8192]⟩ : Shape).ShapeCasts ⟨1, ![8192]⟩) :
    shapeCast ⟨1, ![8192]⟩ (softRankRow (shapeCast ⟨2, ![1, 8192]⟩ x h1)) h2 = softRank x := by
  funext i
  obtain ⟨a, rfl⟩ : ∃ a : Fin 8192, i = ix1 a := ⟨i 0, eq_ix1 i⟩
  rw [shapeCast_1a_a_apply]
  unfold softRankRow softRank
  simp only [shapeCast_a_1a_apply]

end Cert.Spec

end
-- ==== Proof.Tail.lean ====
/-
  The correlation tail: what both programs do with the two rank vectors once they have them.

  Each vector of 8192 entries is centred (its mean, the total divided by 8192, is subtracted from every entry); the
  result is minus the sum of the products of the centred entries, divided by the square root of the product of the two
  sums of squares plus a small constant. Both programs spell this with the same operations in the same order and the
  same float words, so it is carried as ONE function of the two vectors and never opened: the two programs agree as
  soon as the vectors going in agree. The three facts about the shapes that the operations ask for (a vector of 8192
  sums to a scalar; the scalar shape is not empty; a scalar spreads over 8192 entries) are hypotheses here, so that
  each program supplies its own.
-/
import Idealize.ShloMosaic.PureOps.Ideal

noncomputable section

namespace Cert.Tail

open Idealize.ShloMosaic

variable {F : FTy → Type} [FloatOps F]

/-- A vector of 8192 entries. -/
abbrev V8192 : Shape := ⟨1, ![8192]⟩
/-- A scalar. -/
abbrev Sc : Shape := ⟨0, ![]⟩

variable (hr : V8192.ReducesTo [0] Sc) (h0 : 0 < Sc.numel) (hb : Sc.BroadcastsInDim V8192 (![] : Fin 0 → Fin V8192.rank))

/-- The total of a vector's 8192 entries, from the zero word. -/
def total (a : (⟨V8192, .f32⟩ : BufTy).Contents (Elt F)) : (⟨Sc, .f32⟩ : BufTy).Contents (Elt F) :=
  Host.reduceAdd a (constant Sc .f32 0x00000000#32) hr h0

/-- A vector less its mean: the total over 8192, spread back over the 8192 entries, subtracted. -/
def center (a : (⟨V8192, .f32⟩ : BufTy).Contents (Elt F)) : (⟨V8192, .f32⟩ : BufTy).Contents (Elt F) :=
  subf a (broadcastInDim V8192 ![] hb (Host.divf (total hr h0 a) (constant Sc .f32 0x46000000#32)))

/-- Minus the correlation of two vectors, with the small constant added to the denominator. -/
def negCorr (a b : (⟨V8192, .f32⟩ : BufTy).Contents (Elt F)) : (⟨Sc, .f32⟩ : BufTy).Contents (Elt F) :=
  Host.negf (Host.divf (total hr h0 (mulf (center hr h0 hb a) (center hr h0 hb b)))
    (addf (Host.sqrt (mulf (total hr h0 (mulf (center hr h0 hb a) (center hr h0 hb a)))
        (total hr h0 (mulf (center hr h0 hb b) (center hr h0 hb b)))))
      (constant Sc .f32 0x322BCC77#32)))

end Cert.Tail

end
-- ==== Proof.KI.Result.lean ====
/-
  What the idealized kernel program leaves in its result buffer, as a function of its two argument vectors.

  The program reshapes each argument vector into a row, runs a soft-rank call on it, reshapes the row of ranks back
  into a vector, and applies the correlation tail to the two rank vectors. Each call's array after its 32 write-backs
  is the soft rank of the row it was given; reshaping in and out, that is the soft rank of the argument vector. So the
  result buffer holds the correlation tail of the two arguments' soft ranks.
-/
import proofs.«165866_j79809082295156_1_alg».proof.Proof.KI.Run
import proofs.«165866_j79809082295156_1_alg».proof.Proof.KI.Value0
import proofs.«165866_j79809082295156_1_alg».proof.Proof.KI.Value1
import proofs.«165866_j79809082295156_1_alg».proof.Proof.RowForm
import proofs.«165866_j79809082295156_1_alg».proof.Proof.Tail
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

-- reading the last stretch walks its 28 operations one by one
set_option maxHeartbeats 2000000 in
/-- The last stretch of host operations leaves in the result buffer the correlation tail of the first rank vector
    and of the second call's row of ranks reshaped into a vector, whatever the buffers hold before it. -/
theorem tail_after {F : FTy → Type} [FloatOps F] (W : Valuation τ sig (Elt F)) :
    StableHlo.after Gen.hostOps2 W main_v24
      = Cert.Tail.negCorr reducesTo_S8192_S_d0 h_S_ bcast_S_S8192 (W main_v2)
          (shapeCast S8192 (W main_v4) shapeCasts_S1x8192_S8192) := by
  after_results
  unfold Cert.Tail.negCorr Cert.Tail.center Cert.Tail.total
  rfl

variable (m : (ℓ : Loc nD τ sig) → Buf (Elt Ideal) ℓ)

/-- The first call is entered with its read array at the first argument reshaped into a row. -/
theorem entry0_eq (c : Dev nD) :
    E1 m c main_v0 = shapeCast S1x8192 (m ((c : Thread nD τ).loc main_arg0)) shapeCasts_S8192_S1x8192 := by
  show StableHlo.after Gen.hostOps0 (Gen.V0 m c) main_v0 = _
  after_results
  rfl

/-- After the first call and the second stretch, the first rank vector is the first call's row reshaped. -/
theorem ranks0_eq (c : Dev nD) :
    Gen.V4 m (outs m) c main_v2 = shapeCast S8192 (arr0 m c) shapeCasts_S1x8192_S8192 := by
  rw [V4_eq]
  rw [show W4 m c main_v2 = W3 m c main_v2 from Function.update_of_ne (StableHlo.devRef_ne_of_ne (by decide)) _ _]
  show StableHlo.after Gen.hostOps1 (W2 m c) main_v2 = _
  after_results
  rw [show W2 m c main_v1 = arr0 m c from Function.update_self _ _ _]
  rfl

/-- The second call's array is what the second call left. -/
theorem ranks1_eq (c : Dev nD) : Gen.V4 m (outs m) c main_v4 = arr1 m c := by
  rw [V4_eq]; exact Function.update_self _ _ _

/-- The second call is entered with its read array at the second argument reshaped into a row: nothing before it
    writes the argument. -/
theorem entry1_eq (c : Dev nD) :
    E3 m c main_v3 = shapeCast S1x8192 (m ((c : Thread nD τ).loc main_arg1)) shapeCasts_S8192_S1x8192 := by
  show StableHlo.after Gen.hostOps1 (W2 m c) main_v3 = _
  after_results
  rw [show W2 m c main_arg1 = Gen.V1 m c main_arg1 from Function.update_of_ne (StableHlo.devRef_ne_of_ne (by decide)) _ _,
    Gen.V1_of m c main_arg1 (by decide)]
  rfl

/-- THE RESULT: the correlation tail of the two arguments' soft ranks. -/
theorem result_eq (c : Dev nD) :
    Gen.V5 m (outs m) c main_v24
      = Cert.Tail.negCorr reducesTo_S8192_S_d0 h_S_ bcast_S_S8192
          (Cert.Spec.softRank (m ((c : Thread nD τ).loc main_arg0))) (Cert.Spec.softRank (m ((c : Thread nD τ).loc main_arg1))) := by
  show StableHlo.after Gen.hostOps2 (Gen.V4 m (outs m) c) main_v24 = _
  rw [tail_after, ranks0_eq, ranks1_eq]
  unfold arr0 arr1
  rw [final0, final1, entry0_eq, entry1_eq, Cert.Spec.softRank_of_row, Cert.Spec.softRank_of_row]

end Cert.KernelIdeal.Hand

end
-- ==== Proof.RefRead.lean ====
/-
  The reference's run read back: this module brings in the reference program's run (every weakly fair execution
  ends with each result at the composed pure term of the arguments) and the lemmas that read that term one
  operation at a time at an index. What is proved over them is in the modules that import this one.
-/
import proofs.«165866_j79809082295156_1_alg».proof.Proof.Gen.ReferenceIdeal.Run
import proofs.«165866_j79809082295156_1_alg».proof.Proof.Gen.ReferenceIdeal.Read
-- ==== Proof.RefValue.lean ====
/-
  The reference's value, read against the specification.

  The reference program takes two vectors of 8192 entries. From each it forms the whole 8192 by 8192 table of
  differences x i - x j, divides every entry by one, negates it, exponentiates it, adds one and takes the
  reciprocal: entry (i, j) of the table is 1 / (1 + e^(-(x i - x j) / 1)), the logistic function at x i - x j.
  Each row is then summed from zero and one is added: row i gives the soft rank of the vector at entry i. The
  two rank vectors then go through the correlation tail (centre each, minus the sum of products over the root of
  the product of the sums of squares plus a small constant).

  Four facts are proved here. At the extended reals, each rank stage of the reference is the specification's soft
  rank of its argument (the only arithmetic is that the float word 0x3F800000 is the real number one, that
  dividing by one changes nothing, and that a sum started from zero is the sum). At every float instance, the
  reference's last stage is the shared tail function applied to its two rank stages: the two spell the same
  operations in the same order. Together: at the extended reals the reference's result is the tail of the two
  soft ranks.
-/
import proofs.«165866_j79809082295156_1_alg».proof.Proof.RefRead
import proofs.«165866_j79809082295156_1_alg».proof.Proof.Spec
import proofs.«165866_j79809082295156_1_alg».proof.Proof.Tail
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- Dividing an extended real by the real number one leaves it unchanged: one is not zero, and its inverse is one. -/
theorem div_one (d : EReal) : Ideal.div d 1 = d := by
  unfold Ideal.div
  rw [if_neg one_ne_zero, inv_one, mul_one]

/-- The float word 0x3F800000 is the real number one. -/
theorem oneWord : Ideal.ofBits .f32 0x3F800000#32 = (1 : EReal) := Cert.Spec.one_eq

/-- Entry (a, k) of the table of differences reads the column operand at row a: the first vector's entry a. -/
theorem idx_row (a k : Fin 8192) : idx_main_v0 (idx_main_v2 (idx_main_v13 (ix1 a) k)) = ix1 a :=
  funext fun d => Fin.ext (by match d with | ⟨0, _⟩ => rfl)

/-- Entry (a, k) of the table of differences reads the row operand at column k: the vector's entry k. -/
theorem idx_col (a k : Fin 8192) : idx_main_v1 (idx_main_v3 (idx_main_v13 (ix1 a) k)) = ix1 k :=
  funext fun d => Fin.ext (by match d with | ⟨0, _⟩ => rfl)

/-- One entry of the first table before the row sum: the logistic function at the difference of entries a and k. -/
theorem entry0 (x0 : (⟨S8192, .f32⟩ : BufTy).Contents (Elt Ideal)) (a k : Fin 8192) :
    val_main_v12 (F := Ideal) x0 (idx_main_v13 (ix1 a) k) = Ideal.logistic (x0 (ix1 a) - x0 (ix1 k)) := by
  rw [val_main_v12_apply, val_main_v11_apply, val_main_cst_1_apply, val_main_v10_apply, val_main_v9_apply,
    val_main_cst_0_apply, val_main_v8_apply, val_main_v7_apply, val_main_v6_apply, val_main_v5_apply,
    val_main_cst_apply, val_main_v4_apply, val_main_v2_apply, val_main_v3_apply, val_main_v0_apply,
    val_main_v1_apply, idx_row, idx_col]
  simp only [Ideal.ofBits_def, Ideal.hostDivf_def, Ideal.addf_def, Ideal.hostUnary_exp_def, Ideal.hostNegf_def,
    Ideal.negf_def, Ideal.subf_def]
  rw [oneWord, div_one]
  rfl

/-- In the second table, built from the second vector by the same operations, entry (a, k) reads the column
    operand at row a. -/
theorem idx_row' (a k : Fin 8192) : idx_main_v16 (idx_main_v18 (idx_main_v29 (ix1 a) k)) = ix1 a :=
  funext fun d => Fin.ext (by match d with | ⟨0, _⟩ => rfl)

/-- In the second table entry (a, k) reads the row operand at column k. -/
theorem idx_col' (a k : Fin 8192) : idx_main_v17 (idx_main_v19 (idx_main_v29 (ix1 a) k)) = ix1 k :=
  funext fun d => Fin.ext (by match d with | ⟨0, _⟩ => rfl)

/-- One entry of the second table before the row sum: the logistic function at the difference of entries a and k. -/
theorem entry1 (x1 : (⟨S8192, .f32⟩ : BufTy).Contents (Elt Ideal)) (a k : Fin 8192) :
    val_main_v28 (F := Ideal) x1 (idx_main_v29 (ix1 a) k) = Ideal.logistic (x1 (ix1 a) - x1 (ix1 k)) := by
  rw [val_main_v28_apply, val_main_v27_apply, val_main_cst_6_apply, val_main_v26_apply, val_main_v25_apply,
    val_main_cst_5_apply, val_main_v24_apply, val_main_v23_apply, val_main_v22_apply, val_main_v21_apply,
    val_main_cst_4_apply, val_main_v20_apply, val_main_v18_apply, val_main_v19_apply, val_main_v16_apply,
    val_main_v17_apply, idx_row', idx_col']
  simp only [Ideal.ofBits_def, Ideal.hostDivf_def, Ideal.addf_def, Ideal.hostUnary_exp_def, Ideal.hostNegf_def,
    Ideal.negf_def, Ideal.subf_def]
  rw [oneWord, div_one]
  rfl

/-- The reference's first rank stage is the soft rank of its first argument: a row of the table summed from zero
    is the sum of the logistic function over the differences, and the one added last is the same word on both sides. -/
theorem rank0 (x0 : (⟨S8192, .f32⟩ : BufTy).Contents (Elt Ideal)) :
    val_main_v15 (F := Ideal) x0 = Cert.Spec.softRank x0 := by
  funext i
  obtain ⟨a, rfl⟩ : ∃ a : Fin 8192, i = ix1 a := ⟨i 0, eq_ix1 i⟩
  rw [val_main_v15_apply, val_main_v14_apply, val_main_cst_3_apply, val_main_v13_apply, val_main_cst_2_apply]
  simp only [Ideal.ofBits_def, Ideal.addf_def]
  rw [Ideal.ofBits_zero_f32, zero_add]
  unfold Cert.Spec.softRank
  exact congrArg (· + Cert.Spec.oneW) (Finset.sum_congr rfl fun k _ => entry0 x0 a k)

/-- The reference's second rank stage is the soft rank of its second argument. -/
theorem rank1 (x1 : (⟨S8192, .f32⟩ : BufTy).Contents (Elt Ideal)) :
    val_main_v31 (F := Ideal) x1 = Cert.Spec.softRank x1 := by
  funext i
  obtain ⟨a, rfl⟩ : ∃ a : Fin 8192, i = ix1 a := ⟨i 0, eq_ix1 i⟩
  rw [val_main_v31_apply, val_main_v30_apply, val_main_cst_8_apply, val_main_v29_apply, val_main_cst_7_apply]
  simp only [Ideal.ofBits_def, Ideal.addf_def]
  rw [Ideal.ofBits_zero_f32, zero_add]
  unfold Cert.Spec.softRank
  exact congrArg (· + Cert.Spec.oneW) (Finset.sum_congr rfl fun k _ => entry1 x1 a k)

/-- At every float instance the reference's last stage is the correlation tail of its two rank stages: stage by
    stage the reference spells the tail's operations, in the tail's order, with the tail's float words. The two
    rank stages are carried as two unknown vectors, so nothing of full size is compared. -/
theorem tail_eq {F : FTy → Type} [FloatOps F] (x0 x1 : (⟨S8192, .f32⟩ : BufTy).Contents (Elt F)) :
    val_main_v50 (F := F) x0 x1
      = Cert.Tail.negCorr reducesTo_S8192_S_d0 h_S_ bcast_S_S8192 (val_main_v15 (F := F) x0) (val_main_v31 (F := F) x1) := by
  unfold val_main_v50 val_main_v49 val_main_v48 val_main_v47 val_main_v46 val_main_v45 val_main_v44 val_main_v43
    val_main_v42 val_main_v41 val_main_v40 val_main_v39 val_main_v38 val_main_v37 val_main_v36 val_main_v35
    val_main_v34 val_main_v33 val_main_v32 val_main_cst_9 val_main_cst_10 val_main_cst_11 val_main_cst_12
    val_main_cst_13 val_main_cst_14 val_main_cst_15 val_main_cst_16
  unfold Cert.Tail.negCorr Cert.Tail.center Cert.Tail.total
  generalize val_main_v15 (F := F) x0 = r0
  generalize val_main_v31 (F := F) x1 = r1
  rfl

/-- At the extended reals the reference's result is the correlation tail of the two soft ranks. -/
theorem result_eq (x0 x1 : (⟨S8192, .f32⟩ : BufTy).Contents (Elt Ideal)) :
    val_main_v50 (F := Ideal) x0 x1
      = Cert.Tail.negCorr reducesTo_S8192_S_d0 h_S_ bcast_S_S8192 (Cert.Spec.softRank x0) (Cert.Spec.softRank x1) := by
  rw [tail_eq, rank0, rank1]

end Cert.ReferenceIdeal.RefValue

end
-- ==== Proof.lean ====
/-
  The certificate's claim: the kernel program and the reference compute the same number from two vectors of 8192
  finite floats, when floats are read as extended reals and operations are exact.

  Both programs form, for each vector x, its SOFT RANK (at entry i, one more than the sum over all entries j of the
  logistic of x i - x j) and then the same correlation tail of the two rank vectors: each is centred by its mean, and
  the result is minus the sum of products over the square root of the product of the sums of squares plus a small
  constant. The kernel program forms the soft rank in two pipelined calls, 256 rows at a time against the whole vector
  held as one row; the reference forms the whole 8192 by 8192 table of differences at once and spells the logistic as
  1 / (1 + exp(-(d / 1))). At the extended reals the logistic function IS that expression, division by one is the
  identity, a row's sum does not depend on how rows are grouped, and the tail is the same text on both sides: so the
  two results are one function of the arguments, with no use of the inputs' finiteness.

  The three frame claims (each program runs to the end, faults nowhere, and leaves its argument arrays as launched)
  are the programs' runs with the result forgotten: for the two kernel programs the run through the two calls and the
  three host stretches, each call's arrays taken out of the core's buffers and put back; for the reference its
  straight-line host run. The idealization rewrote no operation, so there is nothing to preserve.
-/
import proofs.«165866_j79809082295156_1_alg».proof.Defs
import proofs.«165866_j79809082295156_1_alg».proof.Proof.Gen.Kernel
import proofs.«165866_j79809082295156_1_alg».proof.Proof.Gen.KernelIdeal
import proofs.«165866_j79809082295156_1_alg».proof.Proof.Gen.ReferenceIdeal
import proofs.«165866_j79809082295156_1_alg».proof.Proof.Gen.Pre_finite_inputs
import proofs.«165866_j79809082295156_1_alg».proof.Proof.K.Run
import proofs.«165866_j79809082295156_1_alg».proof.Proof.KI.Run
import proofs.«165866_j79809082295156_1_alg».proof.Proof.KI.Result
import proofs.«165866_j79809082295156_1_alg».proof.Proof.RefRead
import proofs.«165866_j79809082295156_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- So does the reference: its host run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments, both idealized programs end with the result buffer at the
    correlation tail of the two arguments' soft ranks. -/
theorem algebraic : Cert.algebraic_KernelIdeal_ReferenceIdeal := by
  intro m ρ m' ρ' _ hagree
  refine ⟨fun c => Cert.Tail.negCorr Cert.KernelIdeal.Gen.reducesTo_S8192_S_d0 Cert.KernelIdeal.Gen.h_S_ Cert.KernelIdeal.Gen.bcast_S_S8192
      (Cert.Spec.softRank (m ((c.tc : Thread Cert.KernelIdeal.nD Cert.KernelIdeal.τ).loc Cert.KernelIdeal.main_arg0)))
      (Cert.Spec.softRank (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
